-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S2x1200000 : Shape := ⟨2, ![2, 1200000]⟩
abbrev S100000x64 : Shape := ⟨2, ![100000, 64]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S100000 : S_.BroadcastsInDim S100000 (![] : Fin 0 → Fin S100000.rank)
  reducesTo_S100000_S_d0 : S100000.ReducesTo [0] S_

variable [Facts]

def fn_part1 {F : FTy → Type} [FloatOps F] (main_arg0 : IVec S100000 32) (main_v13 : IVec S_ 1) (main_v15 : IVec S100000 1) (main_c_5 : IVec S_ 1) : IVec S_ 1 :=
  let main_v16 : IVec S_ 1 := (fun x v => Host.reduce IntOp.andi x v reducesTo_S100000_S_d0 h_S_) main_v15 main_c_5
  let main_v17 : IVec S_ 1 := andi main_v13 main_v16
  let main_c_6 : IVec S_ 32 := constantI S_ 32 100000#32
  let main_v18 : IVec S100000 32 := broadcastInDim S100000 ![] bcast_S_S100000 main_c_6
  let main_v19 : IVec S100000 1 := cmpi .slt main_arg0 main_v18
  let main_c_7 : IVec S_ 1 := constantI S_ 1 1#1
  let main_v20 : IVec S_ 1 := (fun x v => Host.reduce IntOp.andi x v reducesTo_S100000_S_d0 h_S_) main_v19 main_c_7
  let main_v21 : IVec S_ 1 := andi main_v17 main_v20
  main_v21

def fn {F : FTy → Type} [FloatOps F] (main_arg0 : IVec S100000 32) (main_arg1 : IVec S2x1200000 32) (main_arg2 : FVec F S100000x64 .f32) (main_arg3 : FVec F S64x64 .f32) (main_arg4 : FVec F S64 .f32) : IVec S_ 1 :=
  let main_v0 : FVec F S100000x64 .f32 := Host.absf main_arg2
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_c_4 : IVec S_ 32 := constantI S_ 32 0#32
  let main_v14 : IVec S100000 32 := broadcastInDim S100000 ![] bcast_S_S100000 main_c_4
  let main_v15 : IVec S100000 1 := cmpi .sge main_arg0 main_v14
  let main_c_5 : IVec S_ 1 := constantI S_ 1 1#1
  fn_part1 (F := F) main_arg0 main_v13 main_v15 main_c_5
-- ==== Kernel.lean ====
abbrev S100000 : Shape := ⟨1, ![100000]⟩
abbrev S2x1200000 : Shape := ⟨2, ![2, 1200000]⟩
abbrev S100000x64 : Shape := ⟨2, ![100000, 64]⟩
abbrev S64x64 : Shape := ⟨2, ![64, 64]⟩
abbrev S64 : Shape := ⟨1, ![64]⟩
abbrev S10000x64 : Shape := ⟨2, ![10000, 64]⟩
abbrev S_ : Shape := ⟨0, ![]⟩
abbrev S100000x1 : Shape := ⟨2, ![100000, 1]⟩
abbrev S1 : Shape := ⟨1, ![1]⟩
abbrev S1x1 : Shape := ⟨2, ![1, 1]⟩
abbrev S1x1200000 : Shape := ⟨2, ![1, 1200000]⟩
abbrev S1200000 : Shape := ⟨1, ![1200000]⟩
abbrev S1200000x1 : Shape := ⟨2, ![1200000, 1]⟩
abbrev S1200000x64 : Shape := ⟨2, ![1200000, 64]⟩
abbrev S1x64 : Shape := ⟨2, ![1, 64]⟩

abbrev nBuf : Space → Nat
  | .hbm => 67
  | .vmem => 5
  | .smem => 0
  | _ => 0

abbrev bufTy : (tb : Table) → Fin (tcTables nBuf tb) → BufTy
  | .hbm, ⟨0, _⟩ => ⟨S100000, .i32⟩
  | .hbm, ⟨1, _⟩ => ⟨S2x1200000, .i32⟩
  | .hbm, ⟨2, _⟩ => ⟨S100000x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S100000x64, .f32⟩
  | .hbm, ⟨7, _⟩ => ⟨S_, .i32⟩
  | .hbm, ⟨8, _⟩ => ⟨S100000, .i32⟩
  | .hbm, ⟨9, _⟩ => ⟨S100000, .i1⟩
  | .hbm, ⟨10, _⟩ => ⟨S_, .i32⟩
  | .hbm, ⟨11, _⟩ => ⟨S100000, .i32⟩
  | .hbm, ⟨12, _⟩ => ⟨S100000, .i32⟩
  | .hbm, ⟨13, _⟩ => ⟨S100000, .i32⟩
  | .hbm, ⟨14, _⟩ => ⟨S100000x1, .i32⟩
  | .hbm, ⟨15, _⟩ => ⟨S1, .i32⟩
  | .hbm, ⟨16, _⟩ => ⟨S_, .i32⟩
  | .hbm, ⟨17, _⟩ => ⟨S100000x1, .i32⟩
  | .hbm, ⟨18, _⟩ => ⟨S100000x1, .i1⟩
  | .hbm, ⟨19, _⟩ => ⟨S1x1, .i32⟩
  | .hbm, ⟨20, _⟩ => ⟨S100000x1, .i32⟩
  | .hbm, ⟨21, _⟩ => ⟨S100000x1, .i1⟩
  | .hbm, ⟨22, _⟩ => ⟨S100000x1, .i1⟩
  | .hbm, ⟨23, _⟩ => ⟨S_, .i1⟩
  | .hbm, ⟨24, _⟩ => ⟨S100000, .i1⟩
  | .hbm, ⟨25, _⟩ => ⟨S100000x64, .f32⟩
  | .hbm, ⟨26, _⟩ => ⟨S100000x64, .i1⟩
  | .hbm, ⟨27, _⟩ => ⟨S_, .f32⟩
  | .hbm, ⟨28, _⟩ => ⟨S100000x64, .f32⟩
  | .hbm, ⟨29, _⟩ => ⟨S100000x64, .f32⟩
  | .hbm, ⟨30, _⟩ => ⟨S1x1200000, .i32⟩
  | .hbm, ⟨31, _⟩ => ⟨S1200000, .i32⟩
  | .hbm, ⟨32, _⟩ => ⟨S1x1200000, .i32⟩
  | .hbm, ⟨33, _⟩ => ⟨S1200000, .i32⟩
  | .hbm, ⟨34, _⟩ => ⟨S_, .f32⟩
  | .hbm, ⟨35, _⟩ => ⟨S1200000, .f32⟩
  | .hbm, ⟨36, _⟩ => ⟨S_, .f32⟩
  | .hbm, ⟨37, _⟩ => ⟨S100000, .f32⟩
  | .hbm, ⟨38, _⟩ => ⟨S1200000x1, .i32⟩
  | .hbm, ⟨39, _⟩ => ⟨S100000, .f32⟩
  | .hbm, ⟨40, _⟩ => ⟨S_, .f32⟩
  | .hbm, ⟨41, _⟩ => ⟨S100000, .f32⟩
  | .hbm, ⟨42, _⟩ => ⟨S100000, .f32⟩
  | .hbm, ⟨43, _⟩ => ⟨S100000, .f32⟩
  | .hbm, ⟨44, _⟩ => ⟨S100000x1, .f32⟩
  | .hbm, ⟨45, _⟩ => ⟨S100000x64, .f32⟩
  | .hbm, ⟨46, _⟩ => ⟨S100000x64, .f32⟩
  | .hbm, ⟨47, _⟩ => ⟨S_, .i32⟩
  | .hbm, ⟨48, _⟩ => ⟨S1200000, .i32⟩
  | .hbm, ⟨49, _⟩ => ⟨S1200000, .i1⟩
  | .hbm, ⟨50, _⟩ => ⟨S_, .i32⟩
  | .hbm, ⟨51, _⟩ => ⟨S1200000, .i32⟩
  | .hbm, ⟨52, _⟩ => ⟨S1200000, .i32⟩
  | .hbm, ⟨53, _⟩ => ⟨S1200000, .i32⟩
  | .hbm, ⟨54, _⟩ => ⟨S1200000x1, .i32⟩
  | .hbm, ⟨55, _⟩ => ⟨S1200000x64, .f32⟩
  | .hbm, ⟨56, _⟩ => ⟨S_, .f32⟩
  | .hbm, ⟨57, _⟩ => ⟨S100000x64, .f32⟩
  | .hbm, ⟨58, _⟩ => ⟨S1200000x1, .i32⟩
  | .hbm, ⟨59, _⟩ => ⟨S100000x64, .f32⟩
  | .hbm, ⟨60, _⟩ => ⟨S100000x64, .f32⟩
  | .hbm, ⟨61, _⟩ => ⟨S100000x1, .f32⟩
  | .hbm, ⟨62, _⟩ => ⟨S100000x64, .f32⟩
  | .hbm, ⟨63, _⟩ => ⟨S100000x64, .f32⟩
  | .hbm, ⟨64, _⟩ => ⟨S1x64, .f32⟩
  | .hbm, ⟨65, _⟩ => ⟨S100000x64, .f32⟩
  | .hbm, ⟨66, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_cst : Ref sig .tc := ⟨.hbm, 34, rfl⟩
abbrev main_v7 : Ref sig .tc := ⟨.hbm, 35, rfl⟩
abbrev main_cst_0 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_cst_1 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_c : Ref sig .tc := ⟨.hbm, 47, rfl⟩
abbrev main_v17 : Ref sig .tc := ⟨.hbm, 48, rfl⟩
abbrev main_v18 : Ref sig .tc := ⟨.hbm, 49, rfl⟩
abbrev main_c_2 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_cst_3 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S64x64_S64x64_1_0 : S64x64.Transposes [1, 0] S64x64
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  reducesTo_S100000x1_S100000_d1 : S100000x1.ReducesTo [1] S100000
  h_S_ : 0 < S_.numel
  bcast_S100000_S100000x64_0 : S100000.BroadcastsInDim S100000x64 (![0] : Fin 1 → Fin S100000x64.rank)
  bcast_S_S100000x64 : S_.BroadcastsInDim S100000x64 (![] : Fin 0 → Fin S100000x64.rank)
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S10000x64_S64x64_S10000x64_1_0_0_1_n_n_wf : DotDims.WF S10000x64 S64x64 S10000x64 [1] [0] [0] [1] [] []
  gather_S100000x64_S100000x1_S100000x64_1_0_n_n_0_1_164_wf : GatherDims.WF S100000x64 S100000x1 S100000x64 [1] [0] [] [0] [] 1 ![1, 64]
  scatter_S100000_S1200000x1_S1200000_n_0_0_1_wf : ScatterDims.WF S100000 S1200000x1 S1200000 [] [0] [0] 1
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S100000x1_S100000x64_1_0_n_n_0_1_164 : GatherDims S100000x64 S100000x1 S100000x64 where
  offsetDims := [1]
  collapsedSliceDims := [0]
  operandBatchingDims := []
  startIndicesBatchingDims := []
  startIndexMap := [0]
  indexVectorDim := 1
  sliceSizes := ![1, 64]
  wf := gather_S100000x64_S100000x1_S100000x64_1_0_n_n_0_1_164_wf
def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf

abbrev win0_0 : Pipeline.Window sig grid0 :=
  Pipeline.Window.ofSpec (Memref.whole main_arg2) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000 : Shape := ⟨1, ![100000]⟩
abbrev S2x1200000 : Shape := ⟨2, ![2, 1200000]⟩
abbrev S100000x64 : Shape := ⟨2, ![100000, 64]⟩
abbrev S64x64 : Shape := ⟨2, ![64, 64]⟩
abbrev S64 : Shape := ⟨1, ![64]⟩
abbrev S_ : Shape := ⟨0, ![]⟩
abbrev S100000x1 : Shape := ⟨2, ![100000, 1]⟩
abbrev S1x1200000 : Shape := ⟨2, ![1, 1200000]⟩
abbrev S1200000 : Shape := ⟨1, ![1200000]⟩
abbrev S1300000 : Shape := ⟨1, ![1300000]⟩
abbrev S1300000x1 : Shape := ⟨2, ![1300000, 1]⟩
abbrev S1300000x64 : Shape := ⟨2, ![1300000, 64]⟩
abbrev S1x64 : Shape := ⟨2, ![1, 64]⟩

abbrev nBuf : Space → Nat
  | .hbm => 68
  | .vmem => 0
  | .smem => 0
  | _ => 0

abbrev bufTy : (tb : Table) → Fin (tcTables nBuf tb) → BufTy
  | .hbm, ⟨0, _⟩ => ⟨S100000, .i32⟩
  | .hbm, ⟨1, _⟩ => ⟨S2x1200000, .i32⟩
  | .hbm, ⟨2, _⟩ => ⟨S100000x64, .f32⟩
  | .hbm, ⟨3, _⟩ => ⟨S64x64, .f32⟩
  | .hbm, ⟨4, _⟩ => ⟨S64, .f32⟩
  | .hbm, ⟨5, _⟩ => ⟨S_, .i32⟩
  | .hbm, ⟨6, _⟩ => ⟨S100000, .i32⟩
  | .hbm, ⟨7, _⟩ => ⟨S100000, .i1⟩
  | .hbm, ⟨8, _⟩ => ⟨S_, .i32⟩
  | .hbm, ⟨9, _⟩ => ⟨S100000, .i32⟩
  | .hbm, ⟨10, _⟩ => ⟨S100000, .i32⟩
  | .hbm, ⟨11, _⟩ => ⟨S100000, .i32⟩
  | .hbm, ⟨12, _⟩ => ⟨S100000x1, .i32⟩
  | .hbm, ⟨13, _⟩ => ⟨S100000x64, .f32⟩
  | .hbm, ⟨14, _⟩ => ⟨S64x64, .f32⟩
  | .hbm, ⟨15, _⟩ => ⟨S100000x64, .f32⟩
  | .hbm, ⟨16, _⟩ => ⟨S100000, .i32⟩
  | .hbm, ⟨17, _⟩ => ⟨S1x1200000, .i32⟩
  | .hbm, ⟨18, _⟩ => ⟨S1200000, .i32⟩
  | .hbm, ⟨19, _⟩ => ⟨S1300000, .i32⟩
  | .hbm, ⟨20, _⟩ => ⟨S1x1200000, .i32⟩
  | .hbm, ⟨21, _⟩ => ⟨S1200000, .i32⟩
  | .hbm, ⟨22, _⟩ => ⟨S1300000, .i32⟩
  | .hbm, ⟨23, _⟩ => ⟨S_, .f32⟩
  | .hbm, ⟨24, _⟩ => ⟨S1300000, .f32⟩
  | .hbm, ⟨25, _⟩ => ⟨S_, .f32⟩
  | .hbm, ⟨26, _⟩ => ⟨S100000, .f32⟩
  | .hbm, ⟨27, _⟩ => ⟨S1300000x1, .i32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1300000, .i32⟩
  | .hbm, ⟨32, _⟩ => ⟨S1300000, .i1⟩
  | .hbm, ⟨33, _⟩ => ⟨S_, .i32⟩
  | .hbm, ⟨34, _⟩ => ⟨S1300000, .i32⟩
  | .hbm, ⟨35, _⟩ => ⟨S1300000, .i32⟩
  | .hbm, ⟨36, _⟩ => ⟨S1300000, .i32⟩
  | .hbm, ⟨37, _⟩ => ⟨S1300000x1, .i32⟩
  | .hbm, ⟨38, _⟩ => ⟨S1300000, .f32⟩
  | .hbm, ⟨39, _⟩ => ⟨S_, .i32⟩
  | .hbm, ⟨40, _⟩ => ⟨S1300000, .i32⟩
  | .hbm, ⟨41, _⟩ => ⟨S1300000, .i1⟩
  | .hbm, ⟨42, _⟩ => ⟨S_, .i32⟩
  | .hbm, ⟨43, _⟩ => ⟨S1300000, .i32⟩
  | .hbm, ⟨44, _⟩ => ⟨S1300000, .i32⟩
  | .hbm, ⟨45, _⟩ => ⟨S1300000, .i32⟩
  | .hbm, ⟨46, _⟩ => ⟨S1300000x1, .i32⟩
  | .hbm, ⟨47, _⟩ => ⟨S1300000, .f32⟩
  | .hbm, ⟨48, _⟩ => ⟨S1300000, .f32⟩
  | .hbm, ⟨49, _⟩ => ⟨S_, .i32⟩
  | .hbm, ⟨50, _⟩ => ⟨S1300000, .i32⟩
  | .hbm, ⟨51, _⟩ => ⟨S1300000, .i1⟩
  | .hbm, ⟨52, _⟩ => ⟨S_, .i32⟩
  | .hbm, ⟨53, _⟩ => ⟨S1300000, .i32⟩
  | .hbm, ⟨54, _⟩ => ⟨S1300000, .i32⟩
  | .hbm, ⟨55, _⟩ => ⟨S1300000, .i32⟩
  | .hbm, ⟨56, _⟩ => ⟨S1300000x1, .i32⟩
  | .hbm, ⟨57, _⟩ => ⟨S1300000x64, .f32⟩
  | .hbm, ⟨58, _⟩ => ⟨S1300000x1, .f32⟩
  | .hbm, ⟨59, _⟩ => ⟨S1300000x64, .f32⟩
  | .hbm, ⟨60, _⟩ => ⟨S1300000x64, .f32⟩
  | .hbm, ⟨61, _⟩ => ⟨S_, .f32⟩
  | .hbm, ⟨62, _⟩ => ⟨S100000x64, .f32⟩
  | .hbm, ⟨63, _⟩ => ⟨S1300000x1, .i32⟩
  | .hbm, ⟨64, _⟩ => ⟨S100000x64, .f32⟩
  | .hbm, ⟨65, _⟩ => ⟨S1x64, .f32⟩
  | .hbm, ⟨66, _⟩ => ⟨S100000x64, .f32⟩
  | .hbm, ⟨67, _⟩ => ⟨S100000x64, .f32⟩
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_2 : Ref sig .tc := ⟨.hbm, 30, rfl⟩
abbrev main_v21 : Ref sig .tc := ⟨.hbm, 31, rfl⟩
abbrev main_v22 : Ref sig .tc := ⟨.hbm, 32, rfl⟩
abbrev main_c_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_4 : Ref sig .tc := ⟨.hbm, 39, rfl⟩
abbrev main_v28 : Ref sig .tc := ⟨.hbm, 40, rfl⟩
abbrev main_v29 : Ref sig .tc := ⟨.hbm, 41, rfl⟩
abbrev main_c_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_c_6 : Ref sig .tc := ⟨.hbm, 49, rfl⟩
abbrev main_v36 : Ref sig .tc := ⟨.hbm, 50, rfl⟩
abbrev main_v37 : Ref sig .tc := ⟨.hbm, 51, rfl⟩
abbrev main_c_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_8 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  transposes_S64x64_S64x64_1_0 : S64x64.Transposes [1, 0] S64x64
  slices_S2x1200000_S1x1200000_0_0 : S2x1200000.Slices ![0, 0] S1x1200000
  shapeCasts_S1x1200000_S1200000 : S1x1200000.ShapeCasts S1200000
  concatenates_S1200000_S100000_S1300000_d0 : Shape.Concatenates [S1200000, S100000] S1300000 0
  slices_S2x1200000_S1x1200000_1_0 : S2x1200000.Slices ![1, 0] S1x1200000
  bcast_S_S1300000 : S_.BroadcastsInDim S1300000 (![] : Fin 0 → Fin S1300000.rank)
  bcast_S1300000_S1300000x1_0 : S1300000.BroadcastsInDim S1300000x1 (![0] : Fin 1 → Fin S1300000x1.rank)
  bcast_S1300000x1_S1300000x64_0_1 : S1300000x1.BroadcastsInDim S1300000x64 (![0, 1] : Fin 2 → Fin S1300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S100000x1_S100000x64_1_0_n_n_0_1_164_wf : GatherDims.WF S100000x64 S100000x1 S100000x64 [1] [0] [] [0] [] 1 ![1, 64]
  dot_S100000x64_S64x64_S100000x64_1_0_0_1_n_n_wf : DotDims.WF S100000x64 S64x64 S100000x64 [1] [0] [0] [1] [] []
  scatter_S100000_S1300000x1_S1300000_n_0_0_1_wf : ScatterDims.WF S100000 S1300000x1 S1300000 [] [0] [0] 1
  gather_S100000_S1300000x1_S1300000_n_0_n_n_0_1_1_wf : GatherDims.WF S100000 S1300000x1 S1300000 [] [0] [] [0] [] 1 ![1]
  gather_S100000x64_S1300000x1_S1300000x64_1_0_n_n_0_1_164_wf : GatherDims.WF S100000x64 S1300000x1 S1300000x64 [1] [0] [] [0] [] 1 ![1, 64]
  scatter_S100000x64_S1300000x1_S1300000x64_1_0_0_1_wf : ScatterDims.WF S100000x64 S1300000x1 S1300000x64 [1] [0] [0] 1

variable [Facts₀]

def gather_S100000x64_S100000x1_S100000x64_1_0_n_n_0_1_164 : GatherDims S100000x64 S100000x1 S100000x64 where
  offsetDims := [1]
  collapsedSliceDims := [0]
  operandBatchingDims := []
  startIndicesBatchingDims := []
  startIndexMap := [0]
  indexVectorDim := 1
  sliceSizes := ![1, 64]
  wf := gather_S100000x64_S100000x1_S100000x64_1_0_n_n_0_1_164_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1300000x1_S1300000_n_0_0_1 : ScatterDims S100000 S1300000x1 S1300000 where
  updateWindowDims := []
  insertedWindowDims := [0]
  scatterDimsToOperandDims := [0]
  indexVectorDim := 1
  wf := scatter_S100000_S1300000x1_S1300000_n_0_0_1_wf
def gather_S100000_S1300000x1_S1300000_n_0_n_n_0_1_1 : GatherDims S100000 S1300000x1 S1300000 where
  offsetDims := []
  collapsedSliceDims := [0]
  operandBatchingDims := []
  startIndicesBatchingDims := []
  startIndexMap := [0]
  indexVectorDim := 1
  sliceSizes := ![1]
  wf := gather_S100000_S1300000x1_S1300000_n_0_n_n_0_1_1_wf
def gather_S100000x64_S1300000x1_S1300000x64_1_0_n_n_0_1_164 : GatherDims S100000x64 S1300000x1 S1300000x64 where
  offsetDims := [1]
  collapsedSliceDims := [0]
  operandBatchingDims := []
  startIndicesBatchingDims := []
  startIndexMap := [0]
  indexVectorDim := 1
  sliceSizes := ![1, 64]
  wf := gather_S100000x64_S1300000x1_S1300000x64_1_0_n_n_0_1_164_wf
def scatter_S100000x64_S1300000x1_S1300000x64_1_0_0_1 : ScatterDims S100000x64 S1300000x1 S1300000x64 where
  updateWindowDims := [1]
  insertedWindowDims := [0]
  scatterDimsToOperandDims := [0]
  indexVectorDim := 1
  wf := scatter_S100000x64_S1300000x1_S1300000x64_1_0_0_1_wf

class Facts : Prop extends Facts₀ where

variable [Facts]
-- ==== Proof.GcnSpec.lean ====
/-
  One graph-convolution layer over 100000 nodes, 64 features and 1200000 edges, written twice.

  Nodes carry feature rows `h`. An edge `e` has a source word and a destination word (32-bit, read signed). A
  destination word names node `i` when its signed value is `i`; a word that is negative or past the last node names
  no node, and its edge is dropped by the sum into destinations. A source word selects a row for reading: a negative
  word is first shifted up by the number of nodes (`wrap`), then the signed value is clamped into the node range
  (`pos`). The in-degree of node `i`, self loop included, is one more than the number of edges whose destination word
  names `i`; `dinv i` is its inverse square root.

  FIRST FORM (`outPost`): every row is scaled once by its own `dinv`; the scaled rows of the edges into `i` are
  summed, the node's own scaled row is added (the self loop), and the sum is scaled by `dinv i` once more.
  SECOND FORM (`outEdge`): the edge list is extended by one self-loop edge per node (`cat`: 1200000 words followed
  by the node numbers 0 … 99999); each edge's row is scaled by `dinv` of its source times `dinv` of its destination,
  and the scaled rows are summed into their destinations.

  The two agree (`outPost_eq_outEdge`): an edge into `i` has destination position `i`, so its factor is
  `dinv (source) · dinv i`; `dinv i` is a finite nonnegative number (the degree is a count plus one, at least 1),
  and multiplication by such a number distributes over any sum of extended reals.
-/
import Idealize.ShloMosaic.PureOps
import Idealize.ShloMosaic.PureOps.Ideal
import Idealize.ShloMosaic.Lib.ValueIdx
import Mathlib.Data.EReal.Operations
import Mathlib.Algebra.BigOperators.Fin

noncomputable section

open scoped BigOperators

namespace Cert.Gcn

open Idealize.ShloMosaic Idealize.ShloMosaic.ValueIdx

/-- A row number as the programs normalise it before a read: a negative word is shifted up by the 100000 rows. -/
def wrap (w : BitVec 32) : BitVec 32 :=
  Scalar.select (IntOp.cmpi .slt w 0#32) (IntOp.addi w 100000#32) w

/-- The row a word selects among 100000: its signed value clamped into [0, 99999]. -/
def pos (w : BitVec 32) : Fin 100000 := ⟨min w.toInt.toNat 99999, by omega⟩

/-- 1200000 edge words followed by the node numbers 0 … 99999 (one self-loop edge per node). -/
def cat (a : Fin 1200000 → BitVec 32) (e : Fin 1300000) : BitVec 32 :=
  if h : e.val < 1200000 then a ⟨e.val, h⟩ else BitVec.ofNat 32 (e.val - 1200000)

/-- How many of the `n` words `d` name node `i`, as the accumulation from zero of a one per such word. -/
def count {n : Nat} (d : Fin n → BitVec 32) (i : Fin 100000) : EReal :=
  0 + ∑ e : Fin n, if (d e).toInt = (i.val : ℤ) then (1 : EReal) else 0

/-- Inverse square root of the in-degree, the self loop added as a constant one. -/
def dinvPost (dst : Fin 1200000 → BitVec 32) (i : Fin 100000) : EReal := Ideal.rsqrt (count dst i + 1)

/-- Inverse square root of the in-degree, the self loops counted as edges. -/
def dinvEdge (dst : Fin 1200000 → BitVec 32) (i : Fin 100000) : EReal := Ideal.rsqrt (count (cat dst) i)

/-- The linear layer on table row `r`: the row times the transposed weight matrix, feature `c`. -/
def lin (emb : (⟨2, ![100000, 64]⟩ : Shape).Idx → EReal) (W : (⟨2, ![64, 64]⟩ : Shape).Idx → EReal)
    (r : Fin 100000) (c : Fin 64) : EReal :=
  ∑ k : Fin 64, emb (ix2 r k) * W (ix2 c k)

/-- FIRST FORM: scale rows once, sum over real edges, add the node's own scaled row, scale the sum, add the bias. -/
def outPost (h : Fin 100000 → Fin 64 → EReal) (src dst : Fin 1200000 → BitVec 32) (b : Fin 64 → EReal)
    (i : Fin 100000) (c : Fin 64) : EReal :=
  dinvPost dst i *
      ((0 + ∑ e : Fin 1200000, if (dst e).toInt = (i.val : ℤ)
          then h (pos (wrap (src e))) c * dinvPost dst (pos (wrap (src e))) else 0)
        + h i c * dinvPost dst i)
    + b c

/-- SECOND FORM: one factor per edge of the extended list, summed into destinations, plus the bias. -/
def outEdge (h : Fin 100000 → Fin 64 → EReal) (src dst : Fin 1200000 → BitVec 32) (b : Fin 64 → EReal)
    (i : Fin 100000) (c : Fin 64) : EReal :=
  (0 + ∑ e : Fin 1300000, if (cat dst e).toInt = (i.val : ℤ)
      then h (pos (wrap (cat src e))) c
        * (dinvEdge dst (pos (wrap (cat src e))) * dinvEdge dst (pos (wrap (cat dst e)))) else 0)
    + b c

namespace Spec

/-! ### Positions in the extended list, and its reads -/

/-- Position of edge `e` in the extended list. -/
def edgeIx (e : Fin 1200000) : Fin 1300000 := ⟨e.val, by omega⟩

/-- Position of the self-loop edge of node `j` in the extended list. -/
def nodeIx (j : Fin 100000) : Fin 1300000 := ⟨1200000 + j.val, by omega⟩

theorem cat_edgeIx (a : Fin 1200000 → BitVec 32) (e : Fin 1200000) : cat a (edgeIx e) = a e := by
  unfold cat edgeIx
  rw [dif_pos e.isLt]

theorem cat_nodeIx (a : Fin 1200000 → BitVec 32) (j : Fin 100000) :
    cat a (nodeIx j) = BitVec.ofNat 32 j.val := by
  unfold cat nodeIx
  rw [dif_neg (by simp)]
  simp

/-- A node number below 100000, as a 32-bit word, reads back signed as itself. -/
theorem toInt_node (j : Fin 100000) : (BitVec.ofNat 32 j.val).toInt = (j.val : ℤ) := by
  have hj := j.isLt
  have hn : (BitVec.ofNat 32 j.val).toNat = j.val := by
    rw [BitVec.toNat_ofNat]; omega
  rw [BitVec.toInt_eq_toNat_of_lt (by rw [hn]; omega), hn]

/-- A sum over the extended list is the sum over the edges plus the sum over the self loops. -/
theorem sum_split (f : Fin 1300000 → EReal) :
    ∑ e : Fin 1300000, f e = ∑ e : Fin 1200000, f (edgeIx e) + ∑ j : Fin 100000, f (nodeIx j) :=
  Fin.sum_univ_add (a := 1200000) (b := 100000) f

/-! ### Normalised reads -/

/-- A word that is not negative is left alone by the normalisation. -/
theorem wrap_of_nonneg {w : BitVec 32} (hw : 0 ≤ w.toInt) : wrap w = w := by
  unfold wrap Scalar.select IntOp.cmpi
  have hs : w.slt 0#32 = false := by
    rw [Bool.eq_false_iff, ne_eq, BitVec.slt_iff_toInt_lt]
    simp only [BitVec.toInt_zero]
    omega
  simp [hs]

/-- A word whose signed value is the node number `i` selects row `i`. -/
theorem pos_of_toInt {w : BitVec 32} {i : Fin 100000} (hw : w.toInt = (i.val : ℤ)) : pos w = i := by
  have hi := i.isLt
  apply Fin.ext
  simp only [pos, hw, Int.toNat_natCast]
  omega

/-- A word naming node `i` is read, after normalisation, at row `i`. -/
theorem pos_wrap_of_toInt {w : BitVec 32} {i : Fin 100000} (hw : w.toInt = (i.val : ℤ)) :
    pos (wrap w) = i := by
  rw [wrap_of_nonneg (by omega), pos_of_toInt hw]

/-! ### The degree counts -/

/-- A sum of ones and zeros is a natural number. -/
theorem sum_indicator_eq_natCast {ι : Type} (s : Finset ι) (p : ι → Prop) [DecidablePred p] :
    ∃ k : ℕ, ∑ e ∈ s, (if p e then (1 : EReal) else 0) = ((k : ℝ) : EReal) := by
  classical
  refine Finset.induction_on s ⟨0, by simp⟩ ?_
  intro a s ha ih
  obtain ⟨k, hk⟩ := ih
  rw [Finset.sum_insert ha, hk]
  by_cases hp : p a
  · refine ⟨k + 1, ?_⟩
    rw [if_pos hp, Nat.cast_succ, EReal.coe_add, EReal.coe_one, add_comm]
  · exact ⟨k, by rw [if_neg hp, zero_add]⟩

/-- Counting the self loops as edges adds one to every in-degree. -/
theorem count_cat (dst : Fin 1200000 → BitVec 32) (i : Fin 100000) :
    count (cat dst) i = count dst i + 1 := by
  unfold count
  rw [sum_split, zero_add, zero_add]
  refine congrArg₂ (· + ·) ?_ ?_
  · exact Finset.sum_congr rfl fun e _ => by rw [cat_edgeIx]
  · rw [Finset.sum_eq_single i]
    · rw [cat_nodeIx, toInt_node, if_pos rfl]
    · intro j _ hj
      rw [cat_nodeIx, toInt_node, if_neg]
      intro hji
      exact hj (Fin.ext (by exact_mod_cast hji))
    · intro hi
      exact absurd (Finset.mem_univ i) hi

/-- The two inverse square roots of the degree are the same number. -/
theorem dinvEdge_eq_dinvPost (dst : Fin 1200000 → BitVec 32) (i : Fin 100000) :
    dinvEdge dst i = dinvPost dst i := by
  unfold dinvEdge dinvPost
  rw [count_cat]

/-- The inverse square root of a degree (a count plus one) is a nonnegative real. -/
theorem dinvPost_eq_coe (dst : Fin 1200000 → BitVec 32) (i : Fin 100000) :
    ∃ r : ℝ, 0 ≤ r ∧ dinvPost dst i = (r : EReal) := by
  obtain ⟨k, hk⟩ := sum_indicator_eq_natCast Finset.univ fun e => (dst e).toInt = (i.val : ℤ)
  refine ⟨(Real.sqrt ((k : ℝ) + 1))⁻¹, inv_nonneg.mpr (Real.sqrt_nonneg _), ?_⟩
  have hpos : (0 : ℝ) < (k : ℝ) + 1 := by positivity
  unfold dinvPost count
  rw [hk, zero_add, ← EReal.coe_one, ← EReal.coe_add, Ideal.rsqrt_coe,
    if_neg (not_lt.mpr hpos.le), if_neg hpos.ne']

theorem dinvPost_nonneg (dst : Fin 1200000 → BitVec 32) (i : Fin 100000) : 0 ≤ dinvPost dst i := by
  obtain ⟨r, hr, h⟩ := dinvPost_eq_coe dst i
  rw [h]
  exact EReal.coe_nonneg.mpr hr

theorem dinvPost_ne_top (dst : Fin 1200000 → BitVec 32) (i : Fin 100000) : dinvPost dst i ≠ ⊤ := by
  obtain ⟨r, _, h⟩ := dinvPost_eq_coe dst i
  rw [h]
  exact EReal.coe_ne_top r

/-! ### Multiplication by a finite nonnegative number distributes over a finite sum -/

theorem mul_sum_of_nonneg_of_ne_top {ι : Type} (s : Finset ι) {a : EReal} (ha : 0 ≤ a) (ha' : a ≠ ⊤)
    (f : ι → EReal) : a * ∑ e ∈ s, f e = ∑ e ∈ s, a * f e := by
  classical
  refine Finset.induction_on s (by simp) ?_
  intro x s hx ih
  rw [Finset.sum_insert hx, Finset.sum_insert hx, EReal.left_distrib_of_nonneg_of_ne_top ha ha', ih]

end Spec

open Spec in
/-- The two forms of the layer agree at every node and feature, for any rows, edge words and bias. -/
theorem outPost_eq_outEdge (h : Fin 100000 → Fin 64 → EReal) (src dst : Fin 1200000 → BitVec 32) (b : Fin 64 → EReal)
    (i : Fin 100000) (c : Fin 64) : outPost h src dst b i c = outEdge h src dst b i c := by
  have hnn := dinvPost_nonneg dst i
  have htop := dinvPost_ne_top dst i
  unfold outPost outEdge
  refine congrArg₂ (· + ·) ?_ rfl
  rw [sum_split, zero_add, zero_add, EReal.left_distrib_of_nonneg_of_ne_top hnn htop,
    mul_sum_of_nonneg_of_ne_top _ hnn htop]
  refine congrArg₂ (· + ·) ?_ ?_
  · refine Finset.sum_congr rfl fun e _ => ?_
    rw [cat_edgeIx, cat_edgeIx]
    by_cases hd : (dst e).toInt = (i.val : ℤ)
    · rw [if_pos hd, if_pos hd, dinvEdge_eq_dinvPost, dinvEdge_eq_dinvPost, pos_wrap_of_toInt hd,
        mul_comm, mul_assoc]
    · rw [if_neg hd, if_neg hd, mul_zero]
  · rw [Finset.sum_eq_single i]
    · rw [cat_nodeIx, cat_nodeIx, if_pos (toInt_node i), pos_wrap_of_toInt (toInt_node i),
        dinvEdge_eq_dinvPost, mul_comm, mul_assoc]
    · intro j _ hj
      rw [cat_nodeIx, toInt_node, if_neg]
      intro hji
      exact hj (Fin.ext (by exact_mod_cast hji))
    · intro hi
      exact absurd (Finset.mem_univ i) hi

end Cert.Gcn

end
-- ==== Proof.KernelTerm.lean ====
/-
  The first program's host operations after its matrix-product region, as two pure functions of arrays.

  `takeRows hraw x` is the default-mode row take of the product `hraw` by the node ids `x`: negative ids are shifted up
  by the 100000 rows, the rows are gathered, and every row whose shifted id is outside [0, 99999] is replaced by the
  fill pattern. `layer h ei b` is the graph convolution on the taken rows `h`: in-degrees (plus one for the self loop)
  by a sum of ones into the destination words, their inverse square roots, rows scaled once, scaled rows of the edges
  gathered by source word and summed into destination words, the node's own scaled row added, the sum scaled again, the
  bias added. Both are the printed operations in order, nothing else.
-/
import proofs.«425740_j30485677867451_2_alg».proof.KernelIdeal
import proofs.«425740_j30485677867451_2_alg».proof.Proof.Gen.KernelIdeal

noncomputable section

namespace Cert.KernelIdeal.Term

open Idealize.ShloMosaic Cert.KernelIdeal Cert.KernelIdeal.Facts₀ Cert.KernelIdeal.Facts

variable {F : FTy → Type} [FloatOps F]

/-- Node ids with the negative ones shifted up by the table's 100000 rows. -/
def shiftIds (x : IVec S100000 32) : IVec S100000 32 :=
  select (cmpi .slt x (broadcastInDim S100000 ![] bcast_S_S100000 (constantI S_ 32 0#32)))
    (addi x (broadcastInDim S100000 ![] bcast_S_S100000 (constantI S_ 32 100000#32))) x

/-- The shifted ids as the [100000, 1] column of start indices of the gather. -/
def idColumn (x : IVec S100000 32) : IVec S100000x1 32 :=
  broadcastInDim S100000x1 ![0] bcast_S100000_S100000x1_0 (shiftIds x)

/-- Per row, whether its shifted id lies in [0, 99999]. -/
def rowInRange (x : IVec S100000 32) : IVec S100000 1 :=
  Host.reduce IntOp.andi
    (andi (cmpi .sge (idColumn x) (broadcastInDim S100000x1 ![] bcast_S_S100000x1 (constantI S_ 32 0#32)))
      (cmpi .sle (idColumn x)
        (broadcastInDim S100000x1 ![0, 1] bcast_S1x1_S100000x1_0_1
          (broadcastInDim S1x1 ![1] bcast_S1_S1x1_1 (constantI S1 32 99999#32)))))
    (constantI S_ 1 1#1) reducesTo_S100000x1_S100000_d1 h_S_

/-- The default-mode row take: gathered rows where the id is in range, the fill pattern elsewhere. -/
def takeRows (hraw : FVec F S100000x64 .f32) (x : IVec S100000 32) : FVec F S100000x64 .f32 :=
  select (broadcastInDim S100000x64 ![0] bcast_S100000_S100000x64_0 (rowInRange x))
    (Host.gather gather_S100000x64_S100000x1_S100000x64_1_0_n_n_0_1_164 hraw (idColumn x))
    (broadcastInDim S100000x64 ![] bcast_S_S100000x64 (constant S_ .f32 0x7FC00000#32))

/-- Source words: row 0 of the edge list. -/
def srcWords (ei : IVec S2x1200000 32) : IVec S1200000 32 :=
  shapeCast _ (extractStridedSlice S1x1200000 ![0, 0] ei slices_S2x1200000_S1x1200000_0_0) shapeCasts_S1x1200000_S1200000

/-- Destination words: row 1 of the edge list. -/
def dstWords (ei : IVec S2x1200000 32) : IVec S1200000 32 :=
  shapeCast _ (extractStridedSlice S1x1200000 ![1, 0] ei slices_S2x1200000_S1x1200000_1_0) shapeCasts_S1x1200000_S1200000

/-- Inverse square root of (ones summed into the destination words, plus one). -/
def dinvVec (ei : IVec S2x1200000 32) : FVec F S100000 .f32 :=
  Host.rsqrt
    (addf
      (Host.scatterAdd scatter_S100000_S1200000x1_S1200000_n_0_0_1
        (broadcastInDim S100000 ![] bcast_S_S100000 (constant S_ .f32 0x00000000#32))
        (broadcastInDim S1200000x1 ![0] bcast_S1200000_S1200000x1_0 (dstWords ei))
        (broadcastInDim S1200000 ![] bcast_S_S1200000 (constant S_ .f32 0x3F800000#32)))
      (broadcastInDim S100000 ![] bcast_S_S100000 (constant S_ .f32 0x3F800000#32)))

/-- `dinvVec` laid along the feature axis. -/
def dinvRows (ei : IVec S2x1200000 32) : FVec F S100000x64 .f32 :=
  broadcastInDim S100000x64 ![0, 1] bcast_S100000x1_S100000x64_0_1
    (broadcastInDim S100000x1 ![0] bcast_S100000_S100000x1_0 (dinvVec (F := F) ei))

/-- Rows scaled once by their own inverse-root degree. -/
def scaledRows (h : FVec F S100000x64 .f32) (ei : IVec S2x1200000 32) : FVec F S100000x64 .f32 :=
  mulf h (dinvRows ei)

/-- Source words with the negative ones shifted up, as the [1200000, 1] column of start indices. -/
def srcColumn (ei : IVec S2x1200000 32) : IVec S1200000x1 32 :=
  broadcastInDim S1200000x1 ![0] bcast_S1200000_S1200000x1_0
    (select (cmpi .slt (srcWords ei) (broadcastInDim S1200000 ![] bcast_S_S1200000 (constantI S_ 32 0#32)))
      (addi (srcWords ei) (broadcastInDim S1200000 ![] bcast_S_S1200000 (constantI S_ 32 100000#32))) (srcWords ei))

/-- The graph convolution on the taken rows. -/
def layer (h : FVec F S100000x64 .f32) (ei : IVec S2x1200000 32) (b : FVec F S64 .f32) : FVec F S100000x64 .f32 :=
  addf
    (mulf (dinvRows ei)
      (addf
        (Host.scatterAdd scatter_S100000x64_S1200000x1_S1200000x64_1_0_0_1
          (broadcastInDim S100000x64 ![] bcast_S_S100000x64 (constant S_ .f32 0x00000000#32))
          (broadcastInDim S1200000x1 ![0] bcast_S1200000_S1200000x1_0 (dstWords ei))
          (Host.gather gather_S100000x64_S1200000x1_S1200000x64_1_0_n_n_0_1_164 (scaledRows h ei) (srcColumn ei)))
        (scaledRows h ei)))
    (broadcastInDim S100000x64 ![0, 1] bcast_S1x64_S100000x64_0_1 (broadcastInDim S1x64 ![1] bcast_S64_S1x64_1 b))

end Cert.KernelIdeal.Term

end
-- ==== Proof.KernelTail.lean ====
/-
  The first program's result buffer after the run is its host tail (`Term.layer` on `Term.takeRows`) applied to the
  region's output array and the argument arrays.
-/
import proofs.«425740_j30485677867451_2_alg».proof.Proof.Gen.KernelIdeal.Frame
import proofs.«425740_j30485677867451_2_alg».proof.Proof.KernelTerm
import Idealize.ShloMosaic.Lib.StableHlo.Run

noncomputable section

namespace Cert.KernelIdeal.Tail

open Idealize.ShloMosaic Idealize.ShloMosaic.TcCoe Idealize.SL.Sem
open Cert.KernelIdeal Cert.KernelIdeal.Gen Cert.KernelIdeal.Term

variable {F : FTy → Type} [FloatOps F]
variable (m : (ℓ : Loc nD τ sig) → Buf (Elt F) ℓ)

set_option maxRecDepth 65536 in
set_option maxHeartbeats 25200000 in
/-- The result buffer after the lines that follow the region. -/
theorem tail_eq (c : Dev nD) :
    Pipeline.afterTail₀ cfgs (dats m) 0 (V0 m) [hostOps1, hostOps1_1] c main_v33
      = layer (takeRows ((dats m 0 c).arrAt 2 cfg0.N) (m ((c : Thread nD τ).loc main_arg0)))
          (m ((c : Thread nD τ).loc main_arg1)) (m ((c : Thread nD τ).loc main_arg4)) := by
  unfold Pipeline.afterTail₀
  simp only [hostOps1, hostOps1_1, List.flatten_cons, List.flatten_nil, List.append_nil, List.cons_append,
    List.nil_append]
  after_results_simp
  -- the lines read three argument arrays, which the region leaves as launched, and the region's output array
  have e0 : Pipeline.withArrays (cfgs 0).spec c (V0 m c) (fun w => (dats m 0 c).arrAt w (cfgs 0).N)
      (Proc.devRef .tc main_arg0) = m ((c : Thread nD τ).loc main_arg0) :=
    (Pipeline.withArrays_of_ne _ c (V0 m c) _ main_arg0
      (by exact (by decide : ∀ w, Pipeline.arrRef spec0 w ≠ main_arg0))).trans (V_main_arg0 m c)
  have e1 : Pipeline.withArrays (cfgs 0).spec c (V0 m c) (fun w => (dats m 0 c).arrAt w (cfgs 0).N)
      (Proc.devRef .tc main_arg1) = m ((c : Thread nD τ).loc main_arg1) :=
    (Pipeline.withArrays_of_ne _ c (V0 m c) _ main_arg1
      (by exact (by decide : ∀ w, Pipeline.arrRef spec0 w ≠ main_arg1))).trans (V_main_arg1 m c)
  have e4 : Pipeline.withArrays (cfgs 0).spec c (V0 m c) (fun w => (dats m 0 c).arrAt w (cfgs 0).N)
      (Proc.devRef .tc main_arg4) = m ((c : Thread nD τ).loc main_arg4) :=
    (Pipeline.withArrays_of_ne _ c (V0 m c) _ main_arg4
      (by exact (by decide : ∀ w, Pipeline.arrRef spec0 w ≠ main_arg4))).trans (V_main_arg4 m c)
  have ev : Pipeline.withArrays (cfgs 0).spec c (V0 m c) (fun w => (dats m 0 c).arrAt w (cfgs 0).N)
      (Proc.devRef .tc main_v1) = (dats m 0 c).arrAt 2 cfg0.N :=
    Pipeline.withArrays_arr spec0 launch0.win.arr_inj c _ _ 2
  rw [e0, e1, e4, ev]
  -- a value passed through the called function's typed references is transported along an equation of types
  -- that holds by computation: the transports are identities
  simp only [StableHlo.TRef.toBuf, StableHlo.TRef.ofBuf, cast_eq]
  rfl

end Cert.KernelIdeal.Tail

end
-- ==== Proof.LibScatterAddAt.lean ====
/-
  The host's accumulating float scatter (`stablehlo.scatter` with an `add` body over several scatter indices) READ AT ONE
  ELEMENT of its result, at the ideal instance: the operand's element plus the sum, over ALL updates, of those whose
  index lands on the element — an if-sum over the updates' coordinate ranges, the index words read signed. An index
  word that is negative or past the operand's extent equals no element's coordinate, so its update is in no element's
  sum: the operation drops it. General in the sizes; the dimension numbers enter as equations on the record's fields,
  which a printed record meets by `rfl`.

  Three shapes of dimension numbers: updates added into a vector, one index word each (a count or a sum by segment);
  update rows added into the rows of a matrix, one index word per row (a sum of rows by segment); updates added into a
  matrix at (row, column) pairs of index words (an adjacency matrix from an edge list).
-/
import Idealize.ShloMosaic.Lib.ValueIdxRank1
import Mathlib.Algebra.BigOperators.Group.Finset.Basic
import Mathlib.Algebra.BigOperators.Group.Finset.Piecewise

noncomputable section

open scoped BigOperators

namespace Cert.LibScatterAddAt

open Idealize.ShloMosaic Idealize.ShloMosaic.ValueIdx

/-! ## Where an update lands -/

/-- An update index `j` lands on the operand element `i` iff on every operand axis the window's start (the index word
    read signed, or 0) plus the window coordinate IS `i`'s coordinate — in particular it is then inside the operand,
    and an update one of whose sums is negative or past the extent lands nowhere. -/
theorem resultIdx?_eq_some_iff {s si u : Shape} (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  split
  · rename_i h
    constructor
    · intro he a
      have hf := congrFun (Option.some.inj he) a
      have hv : (d.start j idx a + (d.window j a : ℤ)).toNat = (i a).val := congrArg Fin.val hf
      have h0 := (h a).1
      omega
    · intro hall
      refine congrArg some (funext fun a => Fin.ext ?_)
      show (d.start j idx a + (d.window j a : ℤ)).toNat = (i a).val
      rw [hall a]; exact Int.toNat_natCast _
  · rename_i h
    constructor
    · intro he; exact absurd he (by simp)
    · intro hall
      exact absurd (fun a => by rw [hall a]; exact ⟨Int.natCast_nonneg _, by exact_mod_cast (i a).isLt⟩) h

/-! ## Updates added into a vector, one index word each -/

section Vec

variable {N n w : Nat}

/-- With the operand's one axis inserted and mapped from the index word (index_vector_dim = 1 over indices [n, 1], no
    window axis), update `e`'s window starts at the word `idx[e, 0]` and has no extent. -/
theorem vec_start (d : ScatterDims ⟨1, ![N]⟩ ⟨2, ![n, 1]⟩ ⟨1, ![n]⟩)
    (huw : d.updateWindowDims = []) (hiw : d.insertedWindowDims = [0]) (hsd : d.scatterDimsToOperandDims = [0])
    (hiv : d.indexVectorDim = 1) (idx : IVec ⟨2, ![n, 1]⟩ w) (e : Fin n) :
    d.start (ix1 e) idx 0 = (idx (ix2 e 0)).toInt ∧ d.window (ix1 e) 0 = 0 := by
  obtain ⟨uw, iw, sd, iv, wf⟩ := d
  dsimp only at huw hiw hsd hiv
  subst huw hiw hsd hiv
  refine ⟨?_, ?_⟩
  · unfold ScatterDims.start
    rw [dif_pos (show (0 : Fin 1) ∈ [(0 : Fin 1)] by decide)]
    refine congrArg (fun k => (idx k).toInt) (funext fun b => Fin.ext ?_)
    match b with
    | ⟨0, _⟩ => rfl
    | ⟨1, _⟩ => rfl
  · unfold ScatterDims.window; rw [dif_neg (by simp [ScatterDims.sKept, Shape.kept])]

/-- THE VECTOR SCATTER READ AT i: the operand's element plus every update whose index word is `i` (read signed; a
    negative or too large word matches no coordinate). With updates all 1 this counts the words equal to `i`. -/
theorem ideal_scatterAdd_vec_apply (d : ScatterDims ⟨1, ![N]⟩ ⟨2, ![n, 1]⟩ ⟨1, ![n]⟩)
    (huw : d.updateWindowDims = []) (hiw : d.insertedWindowDims = [0]) (hsd : d.scatterDimsToOperandDims = [0])
    (hiv : d.indexVectorDim = 1)
    (x : (⟨1, ![N]⟩ : Shape).Idx → EReal) (idx : IVec ⟨2, ![n, 1]⟩ w) (upd : (⟨1, ![n]⟩ : Shape).Idx → EReal) (i : Fin N) :
    Ideal.hostScatterAdd d x idx upd (ix1 i)
      = x (ix1 i) + ∑ e : Fin n, if (idx (ix2 e 0)).toInt = (i.val : ℤ) then upd (ix1 e) else 0 := by
  unfold Ideal.hostScatterAdd
  congr 1
  rw [Finset.sum_filter, ← Equiv.sum_comp (idxEquiv1 (n := n)).symm]
  refine Finset.sum_congr rfl fun e _ => ?_
  show (if d.resultIdx? (ix1 e) idx = some (ix1 i) then upd (ix1 e) else 0) = _
  obtain ⟨h0, w0⟩ := vec_start d huw hiw hsd hiv idx e
  have key : d.resultIdx? (ix1 e) idx = some (ix1 i) ↔ (idx (ix2 e 0)).toInt = (i.val : ℤ) := by
    rw [resultIdx?_eq_some_iff]
    constructor
    · intro h
      have a0 := h 0
      rw [h0, w0] at a0
      simp only [Nat.cast_zero, add_zero] at a0
      exact a0
    · intro e0 a
      match a with
      | ⟨0, _⟩ => show d.start (ix1 e) idx 0 + (d.window (ix1 e) 0 : ℤ) = _; rw [h0, w0, e0]; simp
  simp only [key]

/-- The same of the program's operation `Host.scatterAdd` at the ideal instance. -/
theorem host_scatterAdd_vec_apply {φ : FTy} (d : ScatterDims ⟨1, ![N]⟩ ⟨2, ![n, 1]⟩ ⟨1, ![n]⟩)
    (huw : d.updateWindowDims = []) (hiw : d.insertedWindowDims = [0]) (hsd : d.scatterDimsToOperandDims = [0])
    (hiv : d.indexVectorDim = 1)
    (x : FVec Ideal ⟨1, ![N]⟩ φ) (idx : IVec ⟨2, ![n, 1]⟩ w) (upd : FVec Ideal ⟨1, ![n]⟩ φ) (i : Fin N) :
    Host.scatterAdd (F := Ideal) d x idx upd (ix1 i)
      = x (ix1 i) + ∑ e : Fin n, if (idx (ix2 e 0)).toInt = (i.val : ℤ) then upd (ix1 e) else 0 :=
  ideal_scatterAdd_vec_apply d huw hiw hsd hiv x idx upd i

end Vec

/-! ## Update rows added into the rows of a matrix, one index word per row -/

section Rows

variable {N D n w : Nat}

/-- With the operand's row axis inserted and mapped from the index word and its column axis the updates' window axis
    (index_vector_dim = 1 over indices [n, 1]), update `(e, j')`'s window starts at row word `idx[e, 0]`, column 0, and
    `j'` is its coordinate along the row. -/
theorem rows_start (d : ScatterDims ⟨2, ![N, D]⟩ ⟨2, ![n, 1]⟩ ⟨2, ![n, D]⟩)
    (huw : d.updateWindowDims = [1]) (hiw : d.insertedWindowDims = [0]) (hsd : d.scatterDimsToOperandDims = [0])
    (hiv : d.indexVectorDim = 1) (idx : IVec ⟨2, ![n, 1]⟩ w) (e : Fin n) (j' : Fin D) :
    d.start (ix2 e j') idx 0 = (idx (ix2 e 0)).toInt ∧ d.start (ix2 e j') idx 1 = 0
      ∧ d.window (ix2 e j') 0 = 0 ∧ d.window (ix2 e j') 1 = j'.val := by
  obtain ⟨uw, iw, sd, iv, wf⟩ := d
  dsimp only at huw hiw hsd hiv
  subst huw hiw hsd hiv
  refine ⟨?_, ?_, ?_, ?_⟩
  · unfold ScatterDims.start
    rw [dif_pos (show (0 : Fin 2) ∈ [(0 : Fin 2)] by decide)]
    refine congrArg (fun k => (idx k).toInt) (funext fun b => Fin.ext ?_)
    match b with
    | ⟨0, _⟩ => rfl
    | ⟨1, _⟩ => rfl
  · unfold ScatterDims.start; rw [dif_neg (by simp)]
  · unfold ScatterDims.window; rw [dif_neg (by simp [ScatterDims.sKept, Shape.kept])]
  · unfold ScatterDims.window; rw [dif_pos (by simp [ScatterDims.sKept, Shape.kept])]; rfl

/-- THE ROW SCATTER READ AT (i, j): the operand's element plus, of every update row whose index word is `i` (read
    signed; a negative or too large word matches no row), the element in column `j`. -/
theorem ideal_scatterAdd_rows_apply (d : ScatterDims ⟨2, ![N, D]⟩ ⟨2, ![n, 1]⟩ ⟨2, ![n, D]⟩)
    (huw : d.updateWindowDims = [1]) (hiw : d.insertedWindowDims = [0]) (hsd : d.scatterDimsToOperandDims = [0])
    (hiv : d.indexVectorDim = 1)
    (x : (⟨2, ![N, D]⟩ : Shape).Idx → EReal) (idx : IVec ⟨2, ![n, 1]⟩ w) (upd : (⟨2, ![n, D]⟩ : Shape).Idx → EReal)
    (i : Fin N) (j : Fin D) :
    Ideal.hostScatterAdd d x idx upd (ix2 i j)
      = x (ix2 i j) + ∑ e : Fin n, if (idx (ix2 e 0)).toInt = (i.val : ℤ) then upd (ix2 e j) else 0 := by
  unfold Ideal.hostScatterAdd
  congr 1
  rw [Finset.sum_filter, sum_idx2]
  refine Finset.sum_congr rfl fun e _ => ?_
  have key : ∀ j' : Fin D, d.resultIdx? (ix2 e j') idx = some (ix2 i j)
      ↔ ((idx (ix2 e 0)).toInt = (i.val : ℤ) ∧ j' = j) := by
    intro j'
    obtain ⟨h0, h1, w0, w1⟩ := rows_start d huw hiw hsd hiv idx e j'
    rw [resultIdx?_eq_some_iff]
    constructor
    · intro h
      have a0 := h 0; have a1 := h 1
      rw [h0, w0] at a0; rw [h1, w1] at a1
      simp only [Nat.cast_zero, add_zero, zero_add] at a0 a1
      exact ⟨a0, Fin.ext (by exact_mod_cast a1)⟩
    · rintro ⟨e0, rfl⟩ a
      match a with
      | ⟨0, _⟩ => show d.start (ix2 e j') idx 0 + (d.window (ix2 e j') 0 : ℤ) = _; rw [h0, w0, e0]; simp
      | ⟨1, _⟩ => show d.start (ix2 e j') idx 1 + (d.window (ix2 e j') 1 : ℤ) = _; rw [h1, w1]; simp
  simp only [key]
  by_cases hA : (idx (ix2 e 0)).toInt = (i.val : ℤ)
  · simp only [hA, true_and]
    rw [Finset.sum_ite_eq']; simp
  · simp only [hA, false_and, if_false]
    exact Finset.sum_const_zero

/-- The same of the program's operation `Host.scatterAdd` at the ideal instance. -/
theorem host_scatterAdd_rows_apply {φ : FTy} (d : ScatterDims ⟨2, ![N, D]⟩ ⟨2, ![n, 1]⟩ ⟨2, ![n, D]⟩)
    (huw : d.updateWindowDims = [1]) (hiw : d.insertedWindowDims = [0]) (hsd : d.scatterDimsToOperandDims = [0])
    (hiv : d.indexVectorDim = 1)
    (x : FVec Ideal ⟨2, ![N, D]⟩ φ) (idx : IVec ⟨2, ![n, 1]⟩ w) (upd : FVec Ideal ⟨2, ![n, D]⟩ φ) (i : Fin N) (j : Fin D) :
    Host.scatterAdd (F := Ideal) d x idx upd (ix2 i j)
      = x (ix2 i j) + ∑ e : Fin n, if (idx (ix2 e 0)).toInt = (i.val : ℤ) then upd (ix2 e j) else 0 :=
  ideal_scatterAdd_rows_apply d huw hiw hsd hiv x idx upd i j

end Rows

/-! ## Updates added into a matrix at (row, column) pairs of index words -/

section Points

variable {N M n w : Nat}

/-- With both operand axes inserted and mapped from the index pair (index_vector_dim = 1 over indices [n, 2], no window
    axis), update `e`'s window starts at row word `idx[e, 0]` and column word `idx[e, 1]`, and has no extent. -/
theorem points_start (d : ScatterDims ⟨2, ![N, M]⟩ ⟨2, ![n, 2]⟩ ⟨1, ![n]⟩)
    (huw : d.updateWindowDims = []) (hiw : d.insertedWindowDims = [0, 1]) (hsd : d.scatterDimsToOperandDims = [0, 1])
    (hiv : d.indexVectorDim = 1) (idx : IVec ⟨2, ![n, 2]⟩ w) (e : Fin n) :
    d.start (ix1 e) idx 0 = (idx (ix2 e 0)).toInt ∧ d.start (ix1 e) idx 1 = (idx (ix2 e 1)).toInt
      ∧ d.window (ix1 e) 0 = 0 ∧ d.window (ix1 e) 1 = 0 := by
  obtain ⟨uw, iw, sd, iv, wf⟩ := d
  dsimp only at huw hiw hsd hiv
  subst huw hiw hsd hiv
  refine ⟨?_, ?_, ?_, ?_⟩
  · unfold ScatterDims.start
    rw [dif_pos (show (0 : Fin 2) ∈ [(0 : Fin 2), 1] by decide)]
    refine congrArg (fun k => (idx k).toInt) (funext fun b => Fin.ext ?_)
    match b with
    | ⟨0, _⟩ => rfl
    | ⟨1, _⟩ => rfl
  · unfold ScatterDims.start
    rw [dif_pos (show (1 : Fin 2) ∈ [(0 : Fin 2), 1] by decide)]
    refine congrArg (fun k => (idx k).toInt) (funext fun b => Fin.ext ?_)
    match b with
    | ⟨0, _⟩ => rfl
    | ⟨1, _⟩ => rfl
  · unfold ScatterDims.window; rw [dif_neg (by simp [ScatterDims.sKept, Shape.kept])]
  · unfold ScatterDims.window; rw [dif_neg (by simp [ScatterDims.sKept, Shape.kept])]

/-- THE POINT SCATTER READ AT (i, c): the operand's element plus every update whose row word is `i` and whose column
    word is `c` (read signed; a negative or too large word matches no coordinate). -/
theorem ideal_scatterAdd_points_apply (d : ScatterDims ⟨2, ![N, M]⟩ ⟨2, ![n, 2]⟩ ⟨1, ![n]⟩)
    (huw : d.updateWindowDims = []) (hiw : d.insertedWindowDims = [0, 1]) (hsd : d.scatterDimsToOperandDims = [0, 1])
    (hiv : d.indexVectorDim = 1)
    (x : (⟨2, ![N, M]⟩ : Shape).Idx → EReal) (idx : IVec ⟨2, ![n, 2]⟩ w) (upd : (⟨1, ![n]⟩ : Shape).Idx → EReal)
    (i : Fin N) (c : Fin M) :
    Ideal.hostScatterAdd d x idx upd (ix2 i c)
      = x (ix2 i c) + ∑ e : Fin n,
          if (idx (ix2 e 0)).toInt = (i.val : ℤ) ∧ (idx (ix2 e 1)).toInt = (c.val : ℤ) then upd (ix1 e) else 0 := by
  unfold Ideal.hostScatterAdd
  congr 1
  rw [Finset.sum_filter, ← Equiv.sum_comp (idxEquiv1 (n := n)).symm]
  refine Finset.sum_congr rfl fun e _ => ?_
  show (if d.resultIdx? (ix1 e) idx = some (ix2 i c) then upd (ix1 e) else 0) = _
  obtain ⟨h0, h1, w0, w1⟩ := points_start d huw hiw hsd hiv idx e
  have key : d.resultIdx? (ix1 e) idx = some (ix2 i c)
      ↔ (idx (ix2 e 0)).toInt = (i.val : ℤ) ∧ (idx (ix2 e 1)).toInt = (c.val : ℤ) := by
    rw [resultIdx?_eq_some_iff]
    constructor
    · intro h
      have a0 := h 0; have a1 := h 1
      rw [h0, w0] at a0; rw [h1, w1] at a1
      simp only [Nat.cast_zero, add_zero] at a0 a1
      exact ⟨a0, a1⟩
    · rintro ⟨e0, e1⟩ a
      match a with
      | ⟨0, _⟩ => show d.start (ix1 e) idx 0 + (d.window (ix1 e) 0 : ℤ) = _; rw [h0, w0, e0]; simp
      | ⟨1, _⟩ => show d.start (ix1 e) idx 1 + (d.window (ix1 e) 1 : ℤ) = _; rw [h1, w1, e1]; simp
  simp only [key]

/-- The same of the program's operation `Host.scatterAdd` at the ideal instance. -/
theorem host_scatterAdd_points_apply {φ : FTy} (d : ScatterDims ⟨2, ![N, M]⟩ ⟨2, ![n, 2]⟩ ⟨1, ![n]⟩)
    (huw : d.updateWindowDims = []) (hiw : d.insertedWindowDims = [0, 1]) (hsd : d.scatterDimsToOperandDims = [0, 1])
    (hiv : d.indexVectorDim = 1)
    (x : FVec Ideal ⟨2, ![N, M]⟩ φ) (idx : IVec ⟨2, ![n, 2]⟩ w) (upd : FVec Ideal ⟨1, ![n]⟩ φ) (i : Fin N) (c : Fin M) :
    Host.scatterAdd (F := Ideal) d x idx upd (ix2 i c)
      = x (ix2 i c) + ∑ e : Fin n,
          if (idx (ix2 e 0)).toInt = (i.val : ℤ) ∧ (idx (ix2 e 1)).toInt = (c.val : ℤ) then upd (ix1 e) else 0 :=
  ideal_scatterAdd_points_apply d huw hiw hsd hiv x idx upd i c

end Points

end Cert.LibScatterAddAt

end
-- ==== Proof.LibRowTake.lean ====
/-
  A ROW TAKE read at an index.

  `table[idx]` for a rank-2 table `[N, D]` and a vector of `n` row numbers lowers to a `stablehlo.gather` whose
  start indices are the `[n, 1]` column of row numbers: the table's row axis is collapsed and start-indexed, its
  column axis is the result's one offset axis, a slice is one whole row (`slice_sizes = [1, D]`), and the index
  vector lies on axis 1 of the start indices. Result element `(r, c)` is then the table at row `idx[r, 0]`, read as
  a signed integer and clamped into `[0, N − 1]` (a negative row number reads row 0, one past the end the last
  row), and column `c`. `rowTakeDims` are those dimension numbers at any extents and `gather_rowTake_apply` is the
  read.
-/
import Idealize.ShloMosaic.Lib.ValueIdx

namespace Cert.LibRowTake

open Idealize.ShloMosaic Idealize.ShloMosaic.ValueIdx

variable {α : Type}

/-- The dimension numbers of a row take: table `[N, D]`, start indices `[n, 1]`, result `[n, D]`; their conditions
    `wf` are decided on a program's literal shapes. -/
abbrev rowTakeDims (N D n : Nat)
    (wf : GatherDims.WF ⟨2, ![N, D]⟩ ⟨2, ![n, 1]⟩ ⟨2, ![n, D]⟩ [1] [0] [] [0] [] 1 ![1, D]) :
    GatherDims ⟨2, ![N, D]⟩ ⟨2, ![n, 1]⟩ ⟨2, ![n, D]⟩ where
  offsetDims := [1]
  collapsedSliceDims := [0]
  operandBatchingDims := []
  startIndicesBatchingDims := []
  startIndexMap := [0]
  indexVectorDim := 1
  sliceSizes := ![1, D]
  wf := wf

/-- The row axis of the table is start-indexed and collapsed: its coordinate is the clamped start index alone. -/
theorem rowTake_coord0 {N D n w : Nat}
    (wf : GatherDims.WF ⟨2, ![N, D]⟩ ⟨2, ![n, 1]⟩ ⟨2, ![n, D]⟩ [1] [0] [] [0] [] 1 ![1, D])
    (idx : IVec ⟨2, ![n, 1]⟩ w) (r : Fin n) (c : Fin D) :
    ((rowTakeDims N D n wf).operandIdx (ix2 r c) idx 0).val = min (idx (ix2 r (0 : Fin 1))).toInt.toNat (N - 1) := by
  show (rowTakeDims N D n wf).start (ix2 r c) idx 0 + (rowTakeDims N D n wf).batchCoord (ix2 r c) 0
      + (rowTakeDims N D n wf).offCoord (ix2 r c) 0 = _
  have hk : (0 : Fin 2) ∉ (rowTakeDims N D n wf).sKept := fun hm =>
    ((GatherDims.mem_sKept _ _).1 hm).1 (List.mem_singleton.2 rfl)
  rw [GatherDims.batchCoord_eq_zero _ _ _ List.not_mem_nil, GatherDims.offCoord_eq_zero _ _ _ hk]
  simp only [Nat.add_zero]
  have hm : (0 : Fin 2) ∈ (rowTakeDims N D n wf).startIndexMap := List.mem_singleton.2 rfl
  unfold GatherDims.start
  rw [dif_pos hm]
  have hsi : (rowTakeDims N D n wf).siIdx (ix2 r c) ⟨List.idxOf (0 : Fin 2) (rowTakeDims N D n wf).startIndexMap,
      List.idxOf_lt_length_iff.2 hm⟩ = ix2 r (0 : Fin 1) := by
    funext b
    refine Fin.ext ?_
    match b with
    | ⟨0, _⟩ => rfl
    | ⟨1, _⟩ => rfl
  rw [hsi]
  rfl

/-- The column axis of the table is the slice's one kept axis, not start-indexed: its coordinate is the result's
    offset coordinate alone. -/
theorem rowTake_coord1 {N D n w : Nat}
    (wf : GatherDims.WF ⟨2, ![N, D]⟩ ⟨2, ![n, 1]⟩ ⟨2, ![n, D]⟩ [1] [0] [] [0] [] 1 ![1, D])
    (idx : IVec ⟨2, ![n, 1]⟩ w) (r : Fin n) (c : Fin D) :
    ((rowTakeDims N D n wf).operandIdx (ix2 r c) idx 1).val = c.val := by
  show (rowTakeDims N D n wf).start (ix2 r c) idx 1 + (rowTakeDims N D n wf).batchCoord (ix2 r c) 1
      + (rowTakeDims N D n wf).offCoord (ix2 r c) 1 = _
  have h10 : ¬ (1 : Fin 2) = 0 := fun e => absurd (congrArg Fin.val e) Nat.one_ne_zero
  have hm : (1 : Fin 2) ∉ (rowTakeDims N D n wf).startIndexMap := fun hm => h10 (List.mem_singleton.1 hm)
  have hs : (rowTakeDims N D n wf).start (ix2 r c) idx 1 = 0 := by
    unfold GatherDims.start
    rw [dif_neg hm]
  rw [hs, GatherDims.batchCoord_eq_zero _ _ _ List.not_mem_nil]
  simp only [Nat.zero_add]
  have hk : (1 : Fin 2) ∈ (rowTakeDims N D n wf).sKept :=
    (GatherDims.mem_sKept _ _).2 ⟨fun h => h10 (List.mem_singleton.1 h), List.not_mem_nil⟩
  unfold GatherDims.offCoord
  rw [dif_pos hk]
  rfl

/-- THE ROW TAKE READ AT `(r, c)`: the table at the row the start index `idx[r, 0]` names, read signed and clamped
    into `[0, N − 1]`, and column `c`. -/
theorem gather_rowTake_apply {N D n w : Nat} (hN : 0 < N)
    (wf : GatherDims.WF ⟨2, ![N, D]⟩ ⟨2, ![n, 1]⟩ ⟨2, ![n, D]⟩ [1] [0] [] [0] [] 1 ![1, D])
    (x : (⟨2, ![N, D]⟩ : Shape).Idx → α) (idx : IVec ⟨2, ![n, 1]⟩ w) (r : Fin n) (c : Fin D) :
    Host.gather (rowTakeDims N D n wf) x idx (ix2 r c)
      = x (ix2 ⟨min (idx (ix2 r (0 : Fin 1))).toInt.toNat (N - 1), by omega⟩ c) := by
  show x ((rowTakeDims N D n wf).operandIdx (ix2 r c) idx) = _
  congr 1
  funext a
  refine Fin.ext ?_
  match a with
  | ⟨0, _⟩ => exact rowTake_coord0 wf idx r c
  | ⟨1, _⟩ => exact rowTake_coord1 wf idx r c

end Cert.LibRowTake
-- ==== Proof.KernelRead.lean ====
/-
  The first program's host tail read at one node and one feature: with every node id in [0, 100000) the filling
  take is the plain row take, and the convolution on the taken rows is the first form of the layer (`Gcn.outPost`).

  The reads go from the leaves up. Layout operations first (a vector as a column, a column or a row spread over a
  rectangle, a scalar constant spread anywhere); then the integer side of the take (the shift of negative ids, the
  range bit, which is one on every row under the hypothesis, so the select keeps the gathered row); then the edge
  list's two rows, the inverse-root degree vector as a count of destination words plus one, the scaled rows, the
  shifted source column; and last the layer at (i, c) for ANY table of rows, into which the take is substituted.
-/
import proofs.«425740_j30485677867451_2_alg».proof.Proof.KernelTerm
import proofs.«425740_j30485677867451_2_alg».proof.Proof.GcnSpec
import proofs.«425740_j30485677867451_2_alg».proof.Proof.LibScatterAddAt
import proofs.«425740_j30485677867451_2_alg».proof.Proof.LibRowTake
import Idealize.ShloMosaic.Lib.ValueIdx
import Idealize.ShloMosaic.Lib.Pipeline.Value
import Idealize.ShloMosaic.Lib.StableHlo.Predicate
import Idealize.ShloMosaic.Lib.IdealHost
import Idealize.ShloMosaic.PureOps.Ideal.Laws

noncomputable section

namespace Cert.KernelIdeal.TermRead

open Idealize.ShloMosaic Idealize.ShloMosaic.ValueIdx Cert.KernelIdeal Cert.KernelIdeal.Term Cert.KernelIdeal.Facts₀

section Layout
variable {α : Type}

/-- A vector laid as an [n, 1] column reads, at (p, z), the vector at p. -/
theorem bcast_col_apply {n : Nat} (h : (⟨1, ![n]⟩ : Shape).BroadcastsInDim ⟨2, ![n, 1]⟩ ![0])
    (v : (⟨1, ![n]⟩ : Shape).Idx → α) (p : Fin n) (z : Fin 1) :
    broadcastInDim ⟨2, ![n, 1]⟩ ![0] h v (ix2 p z) = v (ix1 p) := by
  refine broadcastInDim_apply _ h v _ _ fun a => ?_
  have ha : a = 0 := Subsingleton.elim _ _
  subst ha
  show p.val = if n = 1 then 0 else p.val
  have hp := p.isLt
  split
  · omega
  · rfl

/-- A vector laid along the rows of an [n, m] rectangle reads, at (p, q), the vector at p. -/
theorem bcast_rowwise_apply {n m : Nat} (h : (⟨1, ![n]⟩ : Shape).BroadcastsInDim ⟨2, ![n, m]⟩ ![0])
    (v : (⟨1, ![n]⟩ : Shape).Idx → α) (p : Fin n) (q : Fin m) :
    broadcastInDim ⟨2, ![n, m]⟩ ![0] h v (ix2 p q) = v (ix1 p) := by
  refine broadcastInDim_apply _ h v _ _ fun a => ?_
  have ha : a = 0 := Subsingleton.elim _ _
  subst ha
  show p.val = if n = 1 then 0 else p.val
  have hp := p.isLt
  split
  · omega
  · rfl

/-- An [n, 1] column spread over [n, m] reads, at (p, q), the column at (p, 0). -/
theorem bcast_ofCol_apply {n m : Nat} (h : (⟨2, ![n, 1]⟩ : Shape).BroadcastsInDim ⟨2, ![n, m]⟩ ![0, 1])
    (v : (⟨2, ![n, 1]⟩ : Shape).Idx → α) (p : Fin n) (q : Fin m) :
    broadcastInDim ⟨2, ![n, m]⟩ ![0, 1] h v (ix2 p q) = v (ix2 p 0) := by
  refine broadcastInDim_apply _ h v _ _ fun a => ?_
  have hp := p.isLt
  match a with
  | ⟨0, _⟩ =>
    show p.val = if n = 1 then 0 else p.val
    split
    · omega
    · rfl
  | ⟨1, _⟩ =>
    show (0 : Nat) = if (1 : Nat) = 1 then 0 else q.val
    rfl

/-- A [1, m] row spread over [n, m] reads, at (p, q), the row at (0, q). -/
theorem bcast_ofRow_apply {n m : Nat} (h : (⟨2, ![1, m]⟩ : Shape).BroadcastsInDim ⟨2, ![n, m]⟩ ![0, 1])
    (v : (⟨2, ![1, m]⟩ : Shape).Idx → α) (p : Fin n) (q : Fin m) :
    broadcastInDim ⟨2, ![n, m]⟩ ![0, 1] h v (ix2 p q) = v (ix2 0 q) := by
  refine broadcastInDim_apply _ h v _ _ fun a => ?_
  have hq := q.isLt
  match a with
  | ⟨0, _⟩ =>
    show (0 : Nat) = if (1 : Nat) = 1 then 0 else p.val
    rfl
  | ⟨1, _⟩ =>
    show q.val = if m = 1 then 0 else q.val
    split
    · omega
    · rfl

/-- A vector laid as a [1, m] row reads, at (z, q), the vector at q. -/
theorem bcast_row_apply {m : Nat} (h : (⟨1, ![m]⟩ : Shape).BroadcastsInDim ⟨2, ![1, m]⟩ ![1])
    (v : (⟨1, ![m]⟩ : Shape).Idx → α) (z : Fin 1) (q : Fin m) :
    broadcastInDim ⟨2, ![1, m]⟩ ![1] h v (ix2 z q) = v (ix1 q) := by
  refine broadcastInDim_apply _ h v _ _ fun a => ?_
  have ha : a = 0 := Subsingleton.elim _ _
  subst ha
  show q.val = if m = 1 then 0 else q.val
  have hq := q.isLt
  split
  · omega
  · rfl

end Layout

/-- A word in [0, 100000) is not shifted. -/
theorem wrap_of_inRange (w : BitVec 32) (h0 : 0 ≤ w.toInt) : Cert.Gcn.wrap w = w := by
  unfold Cert.Gcn.wrap
  have hc : ¬ IntOp.cmpi .slt w 0#32 = 1#1 := by
    rw [IntOp.cmpi_slt]
    have : (0#32 : BitVec 32).toInt = 0 := by decide
    omega
  rw [eq_zero_of_ne_one hc, select_zero]

/-- The shifted id at row `r` is the specification's `wrap` of the id. -/
theorem shiftIds_apply (x : IVec S100000 32) (r : Fin 100000) :
    shiftIds x (ix1 r) = Cert.Gcn.wrap (x (ix1 r)) := rfl

/-- The column of start indices at row `r` is the wrapped id. -/
theorem idColumn_apply (x : IVec S100000 32) (r : Fin 100000) (z : Fin 1) :
    idColumn x (ix2 r z) = Cert.Gcn.wrap (x (ix1 r)) := by
  unfold idColumn
  rw [bcast_col_apply]
  rfl

/-- The conjunction, from the bit one, of bits that are all one is one. -/
theorem foldl_andi_one {ι : Type} (x : ι → BitVec 1) (l : List ι) (h : ∀ i ∈ l, x i = 1#1) :
    l.foldl (fun r i => IntOp.andi r (x i)) 1#1 = 1#1 := by
  induction l with
  | nil => rfl
  | cons a l ih =>
    rw [List.foldl_cons, h a (List.mem_cons_self ..)]
    exact ih fun i hi => h i (List.mem_cons_of_mem _ hi)

/-- Under the hypothesis every row's range bit is one: both comparisons hold of each column entry. -/
theorem rowInRange_apply (x : IVec S100000 32)
    (hx : ∀ r : Fin 100000, 0 ≤ (x (ix1 r)).toInt ∧ (x (ix1 r)).toInt < 100000) (r : Fin 100000) :
    rowInRange x (ix1 r) = 1#1 := by
  unfold rowInRange
  rw [Host.reduce_eq_foldl]
  refine foldl_andi_one _ _ fun i _ => ?_
  obtain ⟨p, q, rfl⟩ : ∃ p q, i = ix2 p q := ⟨i 0, i 1, eq_ix2 i⟩
  show IntOp.andi (IntOp.cmpi .sge (idColumn x (ix2 p q)) 0#32) (IntOp.cmpi .sle (idColumn x (ix2 p q)) 99999#32) = 1#1
  rw [idColumn_apply, wrap_of_inRange _ (hx p).1, IntOp.andi_eq_one, IntOp.cmpi_sge, IntOp.cmpi_sle]
  have h0 : (0#32 : BitVec 32).toInt = 0 := by decide
  have h9 : (99999#32 : BitVec 32).toInt = 99999 := by decide
  have := hx p
  omega

/-- Under the hypothesis the filling take at (r, k) is the table at the clamped wrapped id's row, column k. -/
theorem takeRows_apply (hraw : FVec Ideal S100000x64 .f32) (x : IVec S100000 32)
    (hx : ∀ r : Fin 100000, 0 ≤ (x (ix1 r)).toInt ∧ (x (ix1 r)).toInt < 100000) (r : Fin 100000) (k : Fin 64) :
    takeRows (F := Ideal) hraw x (ix2 r k) = hraw (ix2 (Cert.Gcn.pos (Cert.Gcn.wrap (x (ix1 r)))) k) := by
  unfold takeRows
  rw [select_apply, bcast_rowwise_apply, rowInRange_apply x hx, select_one]
  have hd : gather_S100000x64_S100000x1_S100000x64_1_0_n_n_0_1_164
      = Cert.LibRowTake.rowTakeDims 100000 64 100000 Facts₀.gather_S100000x64_S100000x1_S100000x64_1_0_n_n_0_1_164_wf := rfl
  rw [hd, Cert.LibRowTake.gather_rowTake_apply (by decide)]
  refine congrArg hraw (congrArg (fun p => ix2 p k) (Fin.ext ?_))
  show min (idColumn x (ix2 r 0)).toInt.toNat (100000 - 1) = min (Cert.Gcn.wrap (x (ix1 r))).toInt.toNat 99999
  rw [idColumn_apply]

/-- Source word `e` is entry (0, e) of the edge list. -/
theorem srcWords_apply (ei : IVec S2x1200000 32) (e : Fin 1200000) : srcWords ei (ix1 e) = ei (ix2 0 e) := by
  unfold srcWords
  rw [shapeCast_apply _ _ (ix1 e) (ix2 (0 : Fin 1) e) (by
    rw [Shape.rowMajor_val_two, Shape.rowMajor_val_one]
    show 0 * 1200000 + e.val = e.val
    omega)]
  refine extractStridedSlice_apply _ _ _ _ (ix2 (0 : Fin 2) e) fun a => ?_
  match a with
  | ⟨0, _⟩ => rfl
  | ⟨1, _⟩ => show e.val = 0 + e.val; omega

/-- Destination word `e` is entry (1, e) of the edge list. -/
theorem dstWords_apply (ei : IVec S2x1200000 32) (e : Fin 1200000) : dstWords ei (ix1 e) = ei (ix2 1 e) := by
  unfold dstWords
  rw [shapeCast_apply _ _ (ix1 e) (ix2 (0 : Fin 1) e) (by
    rw [Shape.rowMajor_val_two, Shape.rowMajor_val_one]
    show 0 * 1200000 + e.val = e.val
    omega)]
  refine extractStridedSlice_apply _ _ _ _ (ix2 (1 : Fin 2) e) fun a => ?_
  match a with
  | ⟨0, _⟩ => rfl
  | ⟨1, _⟩ => show e.val = 0 + e.val; omega

/-- The host inverse square root at an index, at the ideal values. -/
theorem rsqrt_apply {s : Shape} {φ : FTy} (v : FVec Ideal s φ) (j : s.Idx) : Host.rsqrt v j = Ideal.rsqrt (v j) := rfl

/-- A scalar float constant spread over any shape reads the constant's value everywhere. -/
theorem bcast_const_apply {t : Shape} {φ : FTy} (h : S_.BroadcastsInDim t ![]) (b : BitVec φ.bits) (j : t.Idx) :
    broadcastInDim t ![] h (constant (F := Ideal) S_ φ b) j = Ideal.ofBits φ b := rfl

/-- The degree vector at node `i`: ones summed into the destination words count the words naming `i`; plus one,
    under the inverse square root. -/
theorem dinvVec_apply (ei : IVec S2x1200000 32) (i : Fin 100000) :
    dinvVec (F := Ideal) ei (ix1 i) = Cert.Gcn.dinvPost (fun e => ei (ix2 1 e)) i := by
  have hs := Cert.LibScatterAddAt.host_scatterAdd_vec_apply (φ := .f32) scatter_S100000_S1200000x1_S1200000_n_0_0_1 rfl rfl rfl rfl
    (broadcastInDim S100000 ![] bcast_S_S100000 (constant (F := Ideal) S_ .f32 0x00000000#32))
    (broadcastInDim S1200000x1 ![0] bcast_S1200000_S1200000x1_0 (dstWords ei))
    (broadcastInDim S1200000 ![] bcast_S_S1200000 (constant (F := Ideal) S_ .f32 0x3F800000#32)) i
  unfold dinvVec
  rw [rsqrt_apply, addf_apply, hs, bcast_const_apply, bcast_const_apply, Ideal.ofBits_zero_f32, Ideal.ofBits_one_f32]
  unfold Cert.Gcn.dinvPost Cert.Gcn.count
  refine congrArg (fun t => Ideal.rsqrt ((0 + t) + 1)) (Finset.sum_congr rfl fun e _ => ?_)
  rw [bcast_col_apply, dstWords_apply, bcast_const_apply, Ideal.ofBits_one_f32]

/-- Laid along the feature axis it reads the same at every feature. -/
theorem dinvRows_apply (ei : IVec S2x1200000 32) (p : Fin 100000) (q : Fin 64) :
    dinvRows (F := Ideal) ei (ix2 p q) = Cert.Gcn.dinvPost (fun e => ei (ix2 1 e)) p := by
  unfold dinvRows
  rw [bcast_ofCol_apply, bcast_col_apply, dinvVec_apply]

/-- A scaled row's entry is the row's entry times the row's inverse-root degree. -/
theorem scaledRows_apply (h : FVec Ideal S100000x64 .f32) (ei : IVec S2x1200000 32) (p : Fin 100000) (q : Fin 64) :
    scaledRows (F := Ideal) h ei (ix2 p q) = h (ix2 p q) * Cert.Gcn.dinvPost (fun e => ei (ix2 1 e)) p := by
  unfold scaledRows
  rw [mulf_apply, dinvRows_apply]

/-- The source column at edge `e` is the wrapped source word. -/
theorem srcColumn_apply (ei : IVec S2x1200000 32) (e : Fin 1200000) (z : Fin 1) :
    srcColumn ei (ix2 e z) = Cert.Gcn.wrap (ei (ix2 0 e)) := by
  unfold srcColumn
  rw [bcast_col_apply, select_apply]
  show Scalar.select (IntOp.cmpi .slt (srcWords ei (ix1 e)) 0#32) (IntOp.addi (srcWords ei (ix1 e)) 100000#32)
    (srcWords ei (ix1 e)) = _
  rw [srcWords_apply]
  rfl

/-- The edge gather at (e, c): the table at the clamped wrapped source word's row, column c. -/
theorem gatherRows_apply (g : FVec Ideal S100000x64 .f32) (ei : IVec S2x1200000 32) (e : Fin 1200000) (c : Fin 64) :
    Host.gather gather_S100000x64_S1200000x1_S1200000x64_1_0_n_n_0_1_164 g (srcColumn ei) (ix2 e c)
      = g (ix2 (Cert.Gcn.pos (Cert.Gcn.wrap (ei (ix2 0 e)))) c) := by
  have hd : gather_S100000x64_S1200000x1_S1200000x64_1_0_n_n_0_1_164
      = Cert.LibRowTake.rowTakeDims 100000 64 1200000 gather_S100000x64_S1200000x1_S1200000x64_1_0_n_n_0_1_164_wf := rfl
  rw [hd, Cert.LibRowTake.gather_rowTake_apply (by decide)]
  refine congrArg g (congrArg (fun p => ix2 p c) (Fin.ext ?_))
  show min (srcColumn ei (ix2 e 0)).toInt.toNat (100000 - 1) = min (Cert.Gcn.wrap (ei (ix2 0 e))).toInt.toNat 99999
  rw [srcColumn_apply]

/-- The layer at (i, c), for any table of rows, is the first form of the specification. -/
theorem layer_apply (h : FVec Ideal S100000x64 .f32) (ei : IVec S2x1200000 32) (b : FVec Ideal S64 .f32)
    (i : Fin 100000) (c : Fin 64) :
    layer (F := Ideal) h ei b (ix2 i c)
      = Cert.Gcn.outPost (fun r k => h (ix2 r k)) (fun e => ei (ix2 0 e)) (fun e => ei (ix2 1 e))
          (fun k => b (ix1 k)) i c := by
  have hs := Cert.LibScatterAddAt.host_scatterAdd_rows_apply (φ := .f32)
    scatter_S100000x64_S1200000x1_S1200000x64_1_0_0_1 rfl rfl rfl rfl
    (broadcastInDim S100000x64 ![] bcast_S_S100000x64 (constant (F := Ideal) S_ .f32 0x00000000#32))
    (broadcastInDim S1200000x1 ![0] bcast_S1200000_S1200000x1_0 (dstWords ei))
    (Host.gather gather_S100000x64_S1200000x1_S1200000x64_1_0_n_n_0_1_164 (scaledRows (F := Ideal) h ei) (srcColumn ei)) i c
  unfold layer
  rw [addf_apply, mulf_apply, addf_apply, hs, dinvRows_apply, scaledRows_apply, bcast_const_apply,
    Ideal.ofBits_zero_f32, bcast_ofRow_apply, bcast_row_apply]
  unfold Cert.Gcn.outPost
  refine congrArg (fun t => Cert.Gcn.dinvPost (fun e => ei (ix2 1 e)) i
    * ((0 + t) + h (ix2 i c) * Cert.Gcn.dinvPost (fun e => ei (ix2 1 e)) i) + b (ix1 c)) (Finset.sum_congr rfl fun e _ => ?_)
  rw [bcast_col_apply, dstWords_apply, gatherRows_apply, scaledRows_apply]

/-- The tail at node `i`, feature `c`, when every node id is in range. -/
theorem kernel_read (hraw : FVec Ideal S100000x64 .f32) (x : IVec S100000 32) (ei : IVec S2x1200000 32)
    (b : FVec Ideal S64 .f32)
    (hx : ∀ r : Fin 100000, 0 ≤ (x (ix1 r)).toInt ∧ (x (ix1 r)).toInt < 100000) (i : Fin 100000) (c : Fin 64) :
    layer (F := Ideal) (takeRows (F := Ideal) hraw x) ei b (ix2 i c)
      = Cert.Gcn.outPost (fun r k => hraw (ix2 (Cert.Gcn.pos (Cert.Gcn.wrap (x (ix1 r)))) k))
          (fun e => ei (ix2 0 e)) (fun e => ei (ix2 1 e)) (fun k => b (ix1 k)) i c := by
  rw [layer_apply]
  have hf : (fun r k => takeRows (F := Ideal) hraw x (ix2 r k))
      = fun r k => hraw (ix2 (Cert.Gcn.pos (Cert.Gcn.wrap (x (ix1 r)))) k) :=
    funext fun r => funext fun k => takeRows_apply hraw x hx r k
  rw [hf]

end Cert.KernelIdeal.TermRead

end
-- ==== Proof.RefRead.lean ====
/-
  The second program's result read at one node and one feature: it is the second form of the layer
  (`Gcn.outEdge`) on the rows `lin emb W` taken at the node ids.
-/
import proofs.«425740_j30485677867451_2_alg».proof.Proof.Gen.ReferenceIdeal.Read
import proofs.«425740_j30485677867451_2_alg».proof.Proof.GcnSpec
import proofs.«425740_j30485677867451_2_alg».proof.Proof.LibScatterAddAt
import proofs.«425740_j30485677867451_2_alg».proof.Proof.LibRowTake
import Idealize.ShloMosaic.Lib.ValueIdx
import Idealize.ShloMosaic.Lib.Pipeline.Value
import Idealize.ShloMosaic.Lib.StableHlo.Predicate
import Idealize.ShloMosaic.Lib.IdealHost
import Idealize.ShloMosaic.PureOps.Ideal.Laws

noncomputable section

namespace Cert.ReferenceIdeal.RefRead

open Idealize.ShloMosaic Idealize.ShloMosaic.ValueIdx Cert.ReferenceIdeal Cert.ReferenceIdeal.Read

/-- The shifted node-id column: a negative word moved up by the row count. -/
theorem v4_read (x : IVec S100000 32) (r : Fin 100000) :
    val_main_v4 (F := Ideal) x (ix1 r) = Cert.Gcn.wrap (x (ix1 r)) := by
  rw [val_main_v4_apply, val_main_v1_apply, val_main_v3_apply, val_main_v0_apply, val_main_c_apply,
    val_main_v2_apply, val_main_c_0_apply]
  rfl

/-- The same column kept as a [100000, 1] table, read at row `r`. -/
theorem v5_read (x : IVec S100000 32) (r : Fin 100000) :
    val_main_v5 (F := Ideal) x (ix2 r (0 : Fin 1)) = Cert.Gcn.wrap (x (ix1 r)) := by
  rw [val_main_v5_apply]
  have e : idx_main_v5 (ix2 r (0 : Fin 1)) = ix1 r := funext fun a => match a with
    | ⟨0, _⟩ => rfl
  rw [e, v4_read]

/-- The table's rows taken at the shifted node ids: row `r`, column `k` is the table at the clamped row. -/
theorem v6_read (x : IVec S100000 32) (emb : FVec Ideal S100000x64 .f32) (r : Fin 100000) (k : Fin 64) :
    val_main_v6 (F := Ideal) x emb (ix2 r k) = emb (ix2 (Cert.Gcn.pos (Cert.Gcn.wrap (x (ix1 r)))) k) := by
  unfold val_main_v6
  have h5 := v5_read x r
  generalize val_main_v5 (F := Ideal) x = y at h5 ⊢
  have hg := Cert.LibRowTake.gather_rowTake_apply (N := 100000) (D := 64) (n := 100000) (by decide)
    Facts₀.gather_S100000x64_S100000x1_S100000x64_1_0_n_n_0_1_164_wf emb y r k
  refine hg.trans ?_
  refine congrArg (fun p => emb (ix2 p k)) (Fin.ext ?_)
  show min (y (ix2 r (0 : Fin 1))).toInt.toNat (100000 - 1) = _
  rw [h5]
  rfl

/-- The linear layer on the taken rows: row `r`, feature `c` is `lin` at the clamped shifted node id. -/
theorem v8_read (x : IVec S100000 32) (emb : FVec Ideal S100000x64 .f32) (W : FVec Ideal S64x64 .f32)
    (r : Fin 100000) (c : Fin 64) :
    val_main_v8 (F := Ideal) x emb W (ix2 r c)
      = Cert.Gcn.lin emb W (Cert.Gcn.pos (Cert.Gcn.wrap (x (ix1 r)))) c := by
  rw [val_main_v8_apply]
  unfold Cert.Gcn.lin
  refine Finset.sum_congr rfl fun k _ => ?_
  have el : lidx_main_v8 (ix2 r c) k = ix2 r k := funext fun a => match a with
    | ⟨0, _⟩ => rfl
    | ⟨1, _⟩ => rfl
  have er : ridx_main_v8 (ix2 r c) k = ix2 k c := funext fun a => match a with
    | ⟨0, _⟩ => rfl
    | ⟨1, _⟩ => rfl
  have et : idx_main_v7 (ix2 k c) = ix2 c k := funext fun a => match a with
    | ⟨0, _⟩ => rfl
    | ⟨1, _⟩ => rfl
  rw [el, er, v6_read, val_main_v7_apply, et]

/-- Row 0 of the edge table as a vector of 1200000 words, read through the slice and the reshape. -/
theorem v11_read (ei : IVec S2x1200000 32) (e : Fin 1200000) :
    val_main_v11 (F := Ideal) ei (ix1 e) = ei (ix2 0 e) := by
  rw [val_main_v11_apply, val_main_v10_apply]
  congr 1
  funext a
  refine Fin.ext ?_
  match a with
  | ⟨0, _⟩ => rfl
  | ⟨1, _⟩ => exact Nat.mod_eq_of_lt e.isLt

/-- Row 1 of the edge table as a vector of 1200000 words. -/
theorem v14_read (ei : IVec S2x1200000 32) (e : Fin 1200000) :
    val_main_v14 (F := Ideal) ei (ix1 e) = ei (ix2 1 e) := by
  rw [val_main_v14_apply, val_main_v13_apply]
  congr 1
  funext a
  refine Fin.ext ?_
  match a with
  | ⟨0, _⟩ => rfl
  | ⟨1, _⟩ => exact Nat.mod_eq_of_lt e.isLt

/-- A vector of 1200000 words followed by the node numbers, read at position `e`. -/
theorem cat_read (v : IVec S1200000 32) (e : Fin 1300000) :
    concatenate S1300000 0 [⟨S1200000, v⟩, ⟨S100000, val_main_v9 (F := Ideal)⟩]
        Facts₀.concatenates_S1200000_S100000_S1300000_d0 (ix1 e)
      = Cert.Gcn.cat (fun e' => v (ix1 e')) e := by
  unfold Cert.Gcn.cat
  by_cases h : e.val < 1200000
  · rw [dif_pos h]
    exact concatenate_pair_apply_left 0 v (val_main_v9 (F := Ideal)) _ (ix1 e) rfl (ix1 ⟨e.val, h⟩)
      (fun b => match b with
        | ⟨0, _⟩ => rfl)
  · rw [dif_neg h]
    have hlt : e.val - 1200000 < 100000 := by have := e.isLt; omega
    refine (concatenate_pair_apply_right 0 v (val_main_v9 (F := Ideal)) _ (ix1 e) rfl rfl
      (ix1 ⟨e.val - 1200000, hlt⟩)
      (fun b hb => absurd (Subsingleton.elim _ _) hb)
      (by show e.val - 1200000 + 1200000 = e.val; omega)).trans ?_
    rfl

/-- The source words followed by the node numbers. -/
theorem v12_read (ei : IVec S2x1200000 32) (e : Fin 1300000) :
    val_main_v12 (F := Ideal) ei (ix1 e) = Cert.Gcn.cat (fun e' => ei (ix2 0 e')) e := by
  unfold val_main_v12
  rw [cat_read]
  congr 1
  funext e'
  exact v11_read ei e'

/-- The destination words followed by the node numbers. -/
theorem v15_read (ei : IVec S2x1200000 32) (e : Fin 1300000) :
    val_main_v15 (F := Ideal) ei (ix1 e) = Cert.Gcn.cat (fun e' => ei (ix2 1 e')) e := by
  unfold val_main_v15
  rw [cat_read]
  congr 1
  funext e'
  exact v14_read ei e'

/-- A [1300000, 1] column made from a vector reads the vector at the row. -/
theorem idx_col (e : Fin 1300000) : idx_main_v18 (ix2 e (0 : Fin 1)) = ix1 e := funext fun a => match a with
  | ⟨0, _⟩ => rfl

/-- The destination column of the degree count. -/
theorem v18_read (ei : IVec S2x1200000 32) (e : Fin 1300000) :
    val_main_v18 (F := Ideal) ei (ix2 e (0 : Fin 1)) = Cert.Gcn.cat (fun e' => ei (ix2 1 e')) e := by
  rw [val_main_v18_apply, idx_col, v15_read]

/-- The degree count: a one added per word of the extended destination list naming the node. -/
theorem v19_read (ei : IVec S2x1200000 32) (i : Fin 100000) :
    val_main_v19 (F := Ideal) ei (ix1 i) = Cert.Gcn.count (Cert.Gcn.cat (fun e' => ei (ix2 1 e'))) i := by
  unfold val_main_v19
  have h18 := v18_read ei
  generalize val_main_v18 (F := Ideal) ei = y at h18 ⊢
  rw [Cert.LibScatterAddAt.host_scatterAdd_vec_apply (N := 100000) (n := 1300000)
    scatter_S100000_S1300000x1_S1300000_n_0_0_1 rfl rfl rfl rfl (val_main_v17 (F := Ideal)) y
    (val_main_v16 (F := Ideal)) i]
  unfold Cert.Gcn.count
  rw [val_main_v17_apply, val_main_cst_1_apply, Ideal.ofBits_def, Ideal.ofBits_zero_f32]
  refine congrArg (fun s => (0 : EReal) + s) (Finset.sum_congr rfl fun e _ => ?_)
  rw [h18 e, val_main_v16_apply, val_main_cst_apply, Ideal.ofBits_def, Ideal.ofBits_one_f32]

/-- The inverse square root of the degree. -/
theorem v20_read (ei : IVec S2x1200000 32) (i : Fin 100000) :
    val_main_v20 (F := Ideal) ei (ix1 i) = Cert.Gcn.dinvEdge (fun e' => ei (ix2 1 e')) i := by
  rw [val_main_v20_apply, v19_read, Ideal.hostUnary_rsqrt_def]
  unfold Cert.Gcn.dinvEdge
  exact rfl

/-- The shifted extended source words (first copy). -/
theorem v25_read (ei : IVec S2x1200000 32) (e : Fin 1300000) :
    val_main_v25 (F := Ideal) ei (ix1 e) = Cert.Gcn.wrap (Cert.Gcn.cat (fun e' => ei (ix2 0 e')) e) := by
  rw [val_main_v25_apply, val_main_v22_apply, val_main_v24_apply, val_main_v21_apply, val_main_c_2_apply,
    val_main_v23_apply, val_main_c_3_apply, v12_read]
  rfl

/-- The shifted extended destination words. -/
theorem v32_read (ei : IVec S2x1200000 32) (e : Fin 1300000) :
    val_main_v32 (F := Ideal) ei (ix1 e) = Cert.Gcn.wrap (Cert.Gcn.cat (fun e' => ei (ix2 1 e')) e) := by
  rw [val_main_v32_apply, val_main_v29_apply, val_main_v31_apply, val_main_v28_apply, val_main_c_4_apply,
    val_main_v30_apply, val_main_c_5_apply, v15_read]
  rfl

/-- The shifted extended source words (second copy). -/
theorem v40_read (ei : IVec S2x1200000 32) (e : Fin 1300000) :
    val_main_v40 (F := Ideal) ei (ix1 e) = Cert.Gcn.wrap (Cert.Gcn.cat (fun e' => ei (ix2 0 e')) e) := by
  rw [val_main_v40_apply, val_main_v37_apply, val_main_v39_apply, val_main_v36_apply, val_main_c_6_apply,
    val_main_v38_apply, val_main_c_7_apply, v12_read]
  rfl

/-- A take from a rank-1 table of 100000 entries by a [1300000, 1] column of words: position `e` reads the
    table at the word's signed value clamped into the table. -/
theorem take_read (t : FVec Ideal S100000 .f32) (y : IVec S1300000x1 32) (e : Fin 1300000) (w : BitVec 32)
    (hy : y (ix2 e (0 : Fin 1)) = w) :
    Host.gather gather_S100000_S1300000x1_S1300000_n_0_n_n_0_1_1 t y (ix1 e) = t (ix1 (Cert.Gcn.pos w)) := by
  have h := StableHlo.Predicate.gather_take gather_S100000_S1300000x1_S1300000_n_0_n_n_0_1_1 rfl rfl rfl rfl
    t y e (by decide)
  have e1 : (Shape.Idx.ofFin e : S1300000.Idx) = ix1 e := eq_ix1 _
  have e2 : StableHlo.Predicate.ixP e = ix2 e (0 : Fin 1) := funext fun a => match a with
    | ⟨0, _⟩ => rfl
    | ⟨1, _⟩ => rfl
  rw [e1] at h
  refine h.trans (congrArg t ?_)
  funext a
  refine Fin.ext ?_
  match a with
  | ⟨0, _⟩ =>
    show min (y (StableHlo.Predicate.ixP e)).toInt.toNat (100000 - 1) = min w.toInt.toNat 99999
    rw [e2, hy]

/-- The first factor of an edge: the inverse square root of the degree at the clamped shifted source word. -/
theorem v27_read (ei : IVec S2x1200000 32) (e : Fin 1300000) :
    val_main_v27 (F := Ideal) ei (ix1 e)
      = Cert.Gcn.dinvEdge (fun e' => ei (ix2 1 e'))
          (Cert.Gcn.pos (Cert.Gcn.wrap (Cert.Gcn.cat (fun e' => ei (ix2 0 e')) e))) := by
  unfold val_main_v27
  have h26 : val_main_v26 (F := Ideal) ei (ix2 e (0 : Fin 1))
      = Cert.Gcn.wrap (Cert.Gcn.cat (fun e' => ei (ix2 0 e')) e) := by
    have e0 : idx_main_v26 (ix2 e (0 : Fin 1)) = ix1 e := funext fun a => match a with
      | ⟨0, _⟩ => rfl
    rw [val_main_v26_apply, e0, v25_read]
  have h20 := v20_read ei
  generalize val_main_v26 (F := Ideal) ei = y at h26 ⊢
  generalize val_main_v20 (F := Ideal) ei = t at h20 ⊢
  rw [take_read t y e _ h26, h20]

/-- The second factor of an edge: the same at the clamped shifted destination word. -/
theorem v34_read (ei : IVec S2x1200000 32) (e : Fin 1300000) :
    val_main_v34 (F := Ideal) ei (ix1 e)
      = Cert.Gcn.dinvEdge (fun e' => ei (ix2 1 e'))
          (Cert.Gcn.pos (Cert.Gcn.wrap (Cert.Gcn.cat (fun e' => ei (ix2 1 e')) e))) := by
  unfold val_main_v34
  have h33 : val_main_v33 (F := Ideal) ei (ix2 e (0 : Fin 1))
      = Cert.Gcn.wrap (Cert.Gcn.cat (fun e' => ei (ix2 1 e')) e) := by
    have e0 : idx_main_v33 (ix2 e (0 : Fin 1)) = ix1 e := funext fun a => match a with
      | ⟨0, _⟩ => rfl
    rw [val_main_v33_apply, e0, v32_read]
  have h20 := v20_read ei
  generalize val_main_v33 (F := Ideal) ei = y at h33 ⊢
  generalize val_main_v20 (F := Ideal) ei = t at h20 ⊢
  rw [take_read t y e _ h33, h20]

/-- The layer's rows taken at the clamped shifted extended source words. -/
theorem v42_read (x : IVec S100000 32) (ei : IVec S2x1200000 32) (emb : FVec Ideal S100000x64 .f32)
    (W : FVec Ideal S64x64 .f32) (e : Fin 1300000) (c : Fin 64) :
    val_main_v42 (F := Ideal) x ei emb W (ix2 e c)
      = Cert.Gcn.lin emb W (Cert.Gcn.pos (Cert.Gcn.wrap (x (ix1
          (Cert.Gcn.pos (Cert.Gcn.wrap (Cert.Gcn.cat (fun e' => ei (ix2 0 e')) e))))))) c := by
  unfold val_main_v42
  have h41 : val_main_v41 (F := Ideal) ei (ix2 e (0 : Fin 1))
      = Cert.Gcn.wrap (Cert.Gcn.cat (fun e' => ei (ix2 0 e')) e) := by
    have e0 : idx_main_v41 (ix2 e (0 : Fin 1)) = ix1 e := funext fun a => match a with
      | ⟨0, _⟩ => rfl
    rw [val_main_v41_apply, e0, v40_read]
  have h8 := v8_read x emb W
  generalize val_main_v41 (F := Ideal) ei = y at h41 ⊢
  generalize val_main_v8 (F := Ideal) x emb W = t at h8 ⊢
  have hg := Cert.LibRowTake.gather_rowTake_apply (N := 100000) (D := 64) (n := 1300000) (by decide)
    Facts₀.gather_S100000x64_S1300000x1_S1300000x64_1_0_n_n_0_1_164_wf t y e c
  refine hg.trans ((congrArg (fun p => t (ix2 p c)) (Fin.ext ?_)).trans (h8 _ c))
  show min (y (ix2 e (0 : Fin 1))).toInt.toNat (100000 - 1) = _
  rw [h41]
  rfl

/-- The edge's factor laid along the 64 features. -/
theorem v44_read (ei : IVec S2x1200000 32) (e : Fin 1300000) (c : Fin 64) :
    val_main_v44 (F := Ideal) ei (ix2 e c)
      = Cert.Gcn.dinvEdge (fun e' => ei (ix2 1 e'))
            (Cert.Gcn.pos (Cert.Gcn.wrap (Cert.Gcn.cat (fun e' => ei (ix2 0 e')) e)))
          * Cert.Gcn.dinvEdge (fun e' => ei (ix2 1 e'))
            (Cert.Gcn.pos (Cert.Gcn.wrap (Cert.Gcn.cat (fun e' => ei (ix2 1 e')) e))) := by
  have e0 : idx_main_v43 (idx_main_v44 (ix2 e c)) = ix1 e := funext fun a => match a with
    | ⟨0, _⟩ => rfl
  rw [val_main_v44_apply, val_main_v43_apply, e0, val_main_v35_apply, v27_read, v34_read, Ideal.mulf_def]

/-- The destination column of the row accumulation. -/
theorem v47_read (ei : IVec S2x1200000 32) (e : Fin 1300000) :
    val_main_v47 (F := Ideal) ei (ix2 e (0 : Fin 1)) = Cert.Gcn.cat (fun e' => ei (ix2 1 e')) e := by
  have e0 : idx_main_v47 (ix2 e (0 : Fin 1)) = ix1 e := funext fun a => match a with
    | ⟨0, _⟩ => rfl
  rw [val_main_v47_apply, e0, v15_read]

/-- The accumulated rows: from zero, every extended edge into node `i` adds its scaled source row. -/
theorem v48_read (x : IVec S100000 32) (ei : IVec S2x1200000 32) (emb : FVec Ideal S100000x64 .f32)
    (W : FVec Ideal S64x64 .f32) (i : Fin 100000) (c : Fin 64) :
    val_main_v48 (F := Ideal) x ei emb W (ix2 i c)
      = 0 + ∑ e : Fin 1300000, if (Cert.Gcn.cat (fun e' => ei (ix2 1 e')) e).toInt = (i.val : ℤ)
          then Cert.Gcn.lin emb W (Cert.Gcn.pos (Cert.Gcn.wrap (x (ix1
                (Cert.Gcn.pos (Cert.Gcn.wrap (Cert.Gcn.cat (fun e' => ei (ix2 0 e')) e))))))) c
            * (Cert.Gcn.dinvEdge (fun e' => ei (ix2 1 e'))
                (Cert.Gcn.pos (Cert.Gcn.wrap (Cert.Gcn.cat (fun e' => ei (ix2 0 e')) e)))
              * Cert.Gcn.dinvEdge (fun e' => ei (ix2 1 e'))
                (Cert.Gcn.pos (Cert.Gcn.wrap (Cert.Gcn.cat (fun e' => ei (ix2 1 e')) e))))
          else 0 := by
  unfold val_main_v48
  have h47 := v47_read ei
  have h45 : ∀ e : Fin 1300000, val_main_v45 (F := Ideal) x ei emb W (ix2 e c)
      = Cert.Gcn.lin emb W (Cert.Gcn.pos (Cert.Gcn.wrap (x (ix1
                (Cert.Gcn.pos (Cert.Gcn.wrap (Cert.Gcn.cat (fun e' => ei (ix2 0 e')) e))))))) c
            * (Cert.Gcn.dinvEdge (fun e' => ei (ix2 1 e'))
                (Cert.Gcn.pos (Cert.Gcn.wrap (Cert.Gcn.cat (fun e' => ei (ix2 0 e')) e)))
              * Cert.Gcn.dinvEdge (fun e' => ei (ix2 1 e'))
                (Cert.Gcn.pos (Cert.Gcn.wrap (Cert.Gcn.cat (fun e' => ei (ix2 1 e')) e)))) := fun e => by
    rw [val_main_v45_apply, v42_read, v44_read, Ideal.mulf_def]
  generalize val_main_v47 (F := Ideal) ei = y at h47 ⊢
  generalize val_main_v45 (F := Ideal) x ei emb W = u at h45 ⊢
  rw [Cert.LibScatterAddAt.host_scatterAdd_rows_apply (N := 100000) (D := 64) (n := 1300000)
    scatter_S100000x64_S1300000x1_S1300000x64_1_0_0_1 rfl rfl rfl rfl (val_main_v46 (F := Ideal)) y u i c,
    val_main_v46_apply, val_main_cst_8_apply, Ideal.ofBits_def, Ideal.ofBits_zero_f32]
  refine congrArg (fun s => (0 : EReal) + s) (Finset.sum_congr rfl fun e _ => ?_)
  rw [h47 e, h45 e]

/-- The reference's result at node `i`, feature `c`. -/
theorem ref_read (x : IVec S100000 32) (ei : IVec S2x1200000 32) (emb : FVec Ideal S100000x64 .f32)
    (W : FVec Ideal S64x64 .f32) (b : FVec Ideal S64 .f32) (i : Fin 100000) (c : Fin 64) :
    val_main_v51 (F := Ideal) x ei emb W b (ix2 i c)
      = Cert.Gcn.outEdge (fun r k => Cert.Gcn.lin emb W (Cert.Gcn.pos (Cert.Gcn.wrap (x (ix1 r)))) k)
          (fun e => ei (ix2 0 e)) (fun e => ei (ix2 1 e)) (fun k => b (ix1 k)) i c := by
  have e0 : idx_main_v49 (idx_main_v50 (ix2 i c)) = ix1 c := funext fun a => match a with
    | ⟨0, _⟩ => rfl
  rw [val_main_v51_apply, v48_read, val_main_v50_apply, val_main_v49_apply, e0, Ideal.addf_def]
  unfold Cert.Gcn.outEdge
  exact rfl

end Cert.ReferenceIdeal.RefRead

end
-- ==== Proof.LinearBlocks.lean ====
/-
  The matrix-product region's output array after the run: ten row blocks of 10000 rows, block `t` holding the
  product of block `t` of the table with the transposed weights; together they are `Gcn.lin` of the whole table.
-/
import proofs.«425740_j30485677867451_2_alg».proof.Proof.Gen.KernelIdeal.Frame
import proofs.«425740_j30485677867451_2_alg».proof.Proof.GcnSpec
import Idealize.ShloMosaic.Lib.ValueIdx
import Idealize.ShloMosaic.Lib.Pipeline.Value
import Idealize.ShloMosaic.Lib.StableHlo.Run
import Idealize.ShloMosaic.PureOps.Ideal.Laws

noncomputable section

namespace Cert.KernelIdeal.Linear

open Idealize.ShloMosaic Idealize.ShloMosaic.TcCoe Idealize.ShloMosaic.ValueIdx Idealize.SL.Sem
open Cert.KernelIdeal Cert.KernelIdeal.Gen

/-- The zero offsets of a whole-block rectangle, as the constant function. -/
theorem hz : (![0, 0] : Fin 2 → Nat) = fun _ => 0 := funext fun a => by fin_cases a <;> rfl

/-! ## The product's operand indices, axis by axis -/

theorem lhs_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhs_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The body's payload at block entry (p, q): the sum over the 64 features of the block's row `p` times column `q`
    of the second operand (the roundings are the identity at the ideal values, the accumulator is zero). -/
theorem pay_apply (x0 : Vec Ideal S10000x64 .f32) (x1 : Vec Ideal S64x64 .f32) (p : Fin 10000) (q : Fin 64) :
    k0_pay1 x0 x1 (ix2 p q) = ∑ k' : Fin 64, x0 (ix2 p k') * x1 (ix2 k' q) := by
  unfold k0_pay1
  simp only [shapeCast_self, matmul]
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 p q) ((ValueIdx.contrEquiv1 dot_S10000x64_S64x64_S10000x64_1_0_0_1_n_n 64 rfl rfl).symm k) = ix2 p k := funext fun a => Fin.ext (by
    match a with
    | ⟨0, _⟩ => exact lhs_0 _ _
    | ⟨1, _⟩ => exact (lhs_1 _ _).trans hk)
  have er : dot_S10000x64_S64x64_S10000x64_1_0_0_1_n_n.rhsIdx (ix2 p q) ((ValueIdx.contrEquiv1 dot_S10000x64_S64x64_S10000x64_1_0_0_1_n_n 64 rfl rfl).symm k) = ix2 k q := funext fun a => Fin.ext (by
    match a with
    | ⟨0, _⟩ => exact (rhs_0 _ _).trans hk
    | ⟨1, _⟩ => exact rhs_1 _ _)
  rw [el, er]
  rfl

/-! ## The arrays the region finds -/

/-- The second operand's array when the region is entered: the transpose of the weight matrix. -/
theorem V_main_v0 (m : (ℓ : Loc nD τ sig) → Buf (Elt Ideal) ℓ) (c : Dev nD) :
    (V m c main_v0 : S64x64.Idx → EReal)
      = transpose S64x64 [1, 0] (m ((c : Thread nD τ).loc main_arg3)) transposes_S64x64_S64x64_1_0 := by
  dsimp only [Gen.V, Gen.V0]
  simp only [Gen.hostOps0, List.flatten_cons, List.flatten_nil, List.append_nil]
  after_results

/-- The printed index maps, decided over the grid: the table's and the output's row block at point `t` is block `t`,
    their column block and both of the weights' are block 0. -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- The table's block at point `t`, entry `j`: the table at row `10000 t + j 0`, column `j 1`. -/
theorem iblk0_apply (m : (ℓ : Loc nD τ sig) → Buf (Elt Ideal) ℓ) (c : Dev nD) (t : Fin cfg0.N)
    (j : S10000x64.Idx) (i : S100000x64.Idx)
    (h0 : (i 0).val = t.val * 10000 + (j 0).val) (h1 : (i 1).val = (j 1).val) :
    (iblk m c 0 t : Vec Ideal S10000x64 .f32) j = m ((c : Thread nD τ).loc main_arg2) i := by
  obtain ⟨e0, e1, -⟩ := idx_facts t
  unfold iblk
  rw [View.read_apply]
  show V m c main_arg2 _ = _
  rw [V_main_arg2]
  congr 1
  funext a; apply Fin.ext
  match a with
  | ⟨0, _⟩ => show win0_0.index t (0 : Fin 2) * 10000 + 1 * (j 0).val = (i 0).val; omega
  | ⟨1, _⟩ => show win0_0.index t (1 : Fin 2) * 64 + 1 * (j 1).val = (i 1).val; omega

/-- The second operand's block at any point, entry `j`: the weight matrix at (`j 1`, `j 0`). -/
theorem iblk1_apply (m : (ℓ : Loc nD τ sig) → Buf (Elt Ideal) ℓ) (c : Dev nD) (t : Fin cfg0.N)
    (j : S64x64.Idx) (i : S64x64.Idx) (h0 : (i 0).val = (j 1).val) (h1 : (i 1).val = (j 0).val) :
    (iblk m c 1 t : Vec Ideal S64x64 .f32) j = m ((c : Thread nD τ).loc main_arg3) i := by
  obtain ⟨-, -, e2, e3, -⟩ := idx_facts t
  unfold iblk
  rw [View.read_apply]
  show V m c main_v0 _ = _
  rw [V_main_v0]
  exact transpose_apply [1, 0] _ transposes_S64x64_S64x64_1_0 _ i (fun b => match b with
    | ⟨0, _⟩ => by show (i 1).val = win0_1.index t (0 : Fin 2) * 64 + 1 * (j 0).val; omega
    | ⟨1, _⟩ => by show (i 0).val = win0_1.index t (1 : Fin 2) * 64 + 1 * (j 1).val; omega)

/-! ## The whole array -/

/-- What the output array ends holding: the linear layer of the table and the weights, index by index. -/
abbrev G (m : (ℓ : Loc nD τ sig) → Buf (Elt Ideal) ℓ) (c : Dev nD) : S100000x64.Idx → EReal := fun j =>
  Cert.Gcn.lin (m ((c : Thread nD τ).loc main_arg2)) (m ((c : Thread nD τ).loc main_arg3)) (j 0) (j 1)

/-- What point `t` writes back is block `t` of `G`. -/
theorem flushed_eq (m : (ℓ : Loc nD τ sig) → Buf (Elt Ideal) ℓ) (c : Dev nD) (t : Fin cfg0.N) :
    (dats (F := Ideal) m 0 c).flushed 2 t = ((cfg0.win 2).blk t).view.read (Elt Ideal) (G m c) := by
  show (cfg0.win 2).cut (grid0.coords t) ((dats m 0 c).after 2 t) = _
  rw [after0_2]
  unfold out0_2
  rw [View.canon_unit_zero hz]
  simp only [View.ld_unit_zero (S := S10000x64) hz, View.ld_unit_zero (S := S64x64) hz]
  obtain ⟨-, -, -, -, e4, e5⟩ := idx_facts t
  funext j
  obtain ⟨p, q, rfl⟩ : ∃ (p : Fin 10000) (q : Fin 64), j = ix2 p q := ⟨j 0, j 1, eq_ix2 j⟩
  show k0_pay1 (iblk m c 0 t) (iblk m c 1 t) (ix2 p q) = G m c (((cfg0.win 2).blk t).view.emb (ix2 p q))
  refine (pay_apply _ _ p q).trans ?_
  show _ = Cert.Gcn.lin _ _ _ _
  unfold Cert.Gcn.lin
  refine Finset.sum_congr rfl fun k' _ => ?_
  congr 1
  · exact iblk0_apply m c t _ _
      (by show win0_2.index t (0 : Fin 2) * 10000 + 1 * p.val = t.val * 10000 + p.val; omega) rfl
  · exact iblk1_apply m c t _ _
      (by show win0_2.index t (1 : Fin 2) * 64 + 1 * q.val = q.val; omega) rfl

/-- An index of the array is in point `t`'s block iff each coordinate is in the block's range on its axis. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v1).slice (win0_2.rect t)).set ↔ _
  rw [View.set_slice_whole, Rect.mem_set_unit]
  exact Iff.rfl

/-- Every index of the array is in the block of the point its row falls in. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  obtain ⟨t, ht⟩ : ∃ t : Fin cfg0.N, t.val = (i 0).val / 10000 := ⟨⟨(i 0).val / 10000, by rw [hN]; omega⟩, rfl⟩
  obtain ⟨-, -, -, -, e4, e5⟩ := idx_facts t
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- The output array after the run is `G`. -/
theorem array_eq (m : (ℓ : Loc nD τ sig) → Buf (Elt Ideal) ℓ) (c : Dev nD) :
    (dats (F := Ideal) m 0 c).arrAt 2 cfg0.N = G m c :=
  (dats m 0 c).arrAt_eq_of_cover 2 (G m c) (fun t _ => flushed_eq m c t) cover

/-- The region's output array, entry (r, k): table row `r` times the transposed weights, feature `k`. -/
theorem region_array (m : (ℓ : Loc nD τ sig) → Buf (Elt Ideal) ℓ) (c : Dev nD) (r : Fin 100000) (k : Fin 64) :
    (dats (F := Ideal) m 0 c).arrAt 2 cfg0.N (ix2 r k)
      = Cert.Gcn.lin (m ((c : Thread nD τ).loc main_arg2)) (m ((c : Thread nD τ).loc main_arg3)) r k := by
  rw [array_eq]

end Cert.KernelIdeal.Linear

end
-- ==== Proof.RowRange.lean ====
/-
  What the precondition says of the node ids: every id is at least 0 and below 100000.
-/
import proofs.«425740_j30485677867451_2_alg».proof.Pre_finite_inputs
import proofs.«425740_j30485677867451_2_alg».proof.Proof.Gen.Pre_finite_inputs
import Idealize.ShloMosaic.Lib.ValueIdx
import Idealize.ShloMosaic.Lib.ReduceAll
import Idealize.ShloMosaic.Lib.Affine
import Idealize.ShloMosaic.Lib.StableHlo.Predicate

noncomputable section

namespace Cert.RowRange

open Idealize.ShloMosaic Idealize.ShloMosaic.ValueIdx Cert.Pre_finite_inputs

/-- The scalar shape has exactly one index. -/
instance subsingleton_scalar_idx : Subsingleton S_.Idx := ⟨fun a b => funext fun d => d.elim0⟩

/-- From the precondition's value being the bit 1: every node id lies in [0, 100000). Generic in the float instance. -/
theorem ids_in_range {F : FTy → Type} [FloatOps F] (x : IVec S100000 32) (ei : IVec S2x1200000 32)
    (emb : FVec F S100000x64 .f32) (W : FVec F S64x64 .f32) (b : FVec F S64 .f32)
    (h : Cert.Pre_finite_inputs.fn (F := F) x ei emb W b = fun _ => 1#1) :
    ∀ r : Fin 100000, 0 ≤ (x (ix1 r)).toInt ∧ (x (ix1 r)).toInt < 100000 := by
  -- the value at the one scalar index is the conjunction of five bits; keep the last two
  have e := congrFun h ValueIdx.ix0
  unfold Cert.Pre_finite_inputs.fn Cert.Pre_finite_inputs.fn_part1 at e
  dsimp only at e
  change IntOp.andi (IntOp.andi _ _) _ = 1#1 at e
  rw [IntOp.andi_eq_one, IntOp.andi_eq_one] at e
  obtain ⟨⟨-, h0⟩, h1⟩ := e
  intro r
  -- a conjunction over all entries that is 1 has a 1 at every entry
  have a0 := Host.reduce_andi_all _ _ _ _ _ h0 (ix1 r)
  have a1 := Host.reduce_andi_all _ _ _ _ _ h1 (ix1 r)
  -- each entry compares the id with a constant read at every index
  simp only [cmpi, broadcastInDim, constantI] at a0 a1
  rw [IntOp.cmpi_sge] at a0
  rw [IntOp.cmpi_slt] at a1
  have z0 : (0#32).toInt = 0 := by decide
  have z1 : (100000#32).toInt = 100000 := by decide
  rw [z0] at a0
  rw [z1] at a1
  exact ⟨a0, a1⟩

end Cert.RowRange

end
-- ==== Proof.lean ====
/-
  Both programs compute one graph-convolution layer over 100000 nodes with 64 features and 1200000 edges, on the rows
  `lin emb W` of a linear map of the embedding table taken at the node ids.

  The first program multiplies the WHOLE table by the transposed weights in a row-blocked matrix product, takes the
  product's rows at the node ids with a take that fills out-of-range rows, and then scales rows once, sums the scaled
  rows of real edges into destinations, adds each node's own scaled row, scales again and adds the bias
  (`Gcn.outPost`). The second program takes the table's rows first, multiplies, and sums per-edge scaled rows over
  the edge list extended by one self loop per node (`Gcn.outEdge`). Taking rows commutes with a row-wise linear map,
  and with every node id in [0, 100000) — the precondition — the filling take is the plain take; the two forms of the
  layer agree because the inverse-root degree is a finite nonnegative number, which distributes over any sum of
  extended reals (`Gcn.outPost_eq_outEdge`). Edge words need no range: a destination word outside the nodes is
  dropped by both sums, and a source word is clamped by both reads.
-/
import proofs.«425740_j30485677867451_2_alg».proof.Defs
import proofs.«425740_j30485677867451_2_alg».proof.Proof.Gen.Kernel
import proofs.«425740_j30485677867451_2_alg».proof.Proof.Gen.Kernel.Frame
import proofs.«425740_j30485677867451_2_alg».proof.Proof.Gen.KernelIdeal
import proofs.«425740_j30485677867451_2_alg».proof.Proof.Gen.KernelIdeal.Frame
import proofs.«425740_j30485677867451_2_alg».proof.Proof.Gen.ReferenceIdeal
import proofs.«425740_j30485677867451_2_alg».proof.Proof.Gen.ReferenceIdeal.Run
import proofs.«425740_j30485677867451_2_alg».proof.Proof.Gen.ReferenceIdeal.Read
import proofs.«425740_j30485677867451_2_alg».proof.Proof.Gen.Pre_finite_inputs
import proofs.«425740_j30485677867451_2_alg».proof.Proof.GcnSpec
import proofs.«425740_j30485677867451_2_alg».proof.Proof.KernelTail
import proofs.«425740_j30485677867451_2_alg».proof.Proof.KernelRead
import proofs.«425740_j30485677867451_2_alg».proof.Proof.RefRead
import proofs.«425740_j30485677867451_2_alg».proof.Proof.LinearBlocks
import proofs.«425740_j30485677867451_2_alg».proof.Proof.RowRange
import Idealize.ShloMosaic.Adequacy
import Idealize.ShloMosaic.Init

noncomputable section

namespace Cert.Proof

open Idealize.ShloMosaic Idealize.ShloMosaic.TcCoe Idealize.ShloMosaic.ValueIdx Idealize.SL.Sem

/-- The first program's result buffer after its run, named: the lines after the region applied to the region's
    output array and the arguments. -/
abbrev kernelResult (m : (ℓ : Loc Cert.KernelIdeal.nD Cert.KernelIdeal.τ Cert.KernelIdeal.sig) → Buf (Elt Ideal) ℓ)
    (c : Dev Cert.KernelIdeal.nD) :
    Buf (Elt Ideal) ((c.tc : Thread Cert.KernelIdeal.nD Cert.KernelIdeal.τ).loc Cert.KernelIdeal.main_v33) :=
  Pipeline.afterTail₀ Cert.KernelIdeal.cfgs (Cert.KernelIdeal.Gen.dats m) 0 (Cert.KernelIdeal.Gen.V0 m)
    [Cert.KernelIdeal.Gen.hostOps1, Cert.KernelIdeal.Gen.hostOps1_1] c Cert.KernelIdeal.main_v33

/-- The first program's result at node `i`, feature `k`, under the precondition: the second form of the layer on the
    rows `lin emb W` taken at the node ids. -/
theorem kernelResult_apply (m : (ℓ : Loc Cert.KernelIdeal.nD Cert.KernelIdeal.τ Cert.KernelIdeal.sig) → Buf (Elt Ideal) ℓ)
    (hpre : Cert.Pre_KernelIdeal m) (c : Dev Cert.KernelIdeal.nD) (i : Fin 100000) (k : Fin 64) :
    kernelResult m c (ix2 i k)
      = Cert.Gcn.outEdge
          (fun r q => Cert.Gcn.lin (m ((c.tc : Thread Cert.KernelIdeal.nD Cert.KernelIdeal.τ).loc Cert.KernelIdeal.main_arg2))
            (m ((c.tc : Thread Cert.KernelIdeal.nD Cert.KernelIdeal.τ).loc Cert.KernelIdeal.main_arg3))
            (Cert.Gcn.pos (Cert.Gcn.wrap (m ((c.tc : Thread Cert.KernelIdeal.nD Cert.KernelIdeal.τ).loc Cert.KernelIdeal.main_arg0) (ix1 r)))) q)
          (fun e => m ((c.tc : Thread Cert.KernelIdeal.nD Cert.KernelIdeal.τ).loc Cert.KernelIdeal.main_arg1) (ix2 0 e))
          (fun e => m ((c.tc : Thread Cert.KernelIdeal.nD Cert.KernelIdeal.τ).loc Cert.KernelIdeal.main_arg1) (ix2 1 e))
          (fun q => m ((c.tc : Thread Cert.KernelIdeal.nD Cert.KernelIdeal.τ).loc Cert.KernelIdeal.main_arg4) (ix1 q)) i k := by
  have hx := Cert.RowRange.ids_in_range (F := Ideal) _ _ _ _ _ (hpre c)
  unfold kernelResult
  rw [Cert.KernelIdeal.Tail.tail_eq (F := Ideal) m c,
    Cert.KernelIdeal.TermRead.kernel_read _ _ _ _ hx i k, Cert.Gcn.outPost_eq_outEdge]
  congr 1
  funext r q
  exact Cert.KernelIdeal.Linear.region_array m c _ q

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The first program's run with its result buffer named and its arguments unchanged. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v33) = kernelResult m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) := by
  -- the frame run ends with every buffer that is no array of the pipeline as the lines after the region leave it,
  -- and with the staged input array as it was launched
  exact (θ_run Cert.KernelIdeal.defs _ _).mono (fun _ h c =>
    ⟨(h c).2 Cert.KernelIdeal.main_v33 (Pipeline.mem_restRefs_of Cert.KernelIdeal.main_v33 (by decide) (by decide)),
      ((h c).2 Cert.KernelIdeal.main_arg0 (Pipeline.mem_restRefs_of Cert.KernelIdeal.main_arg0 (by decide) (by decide))).trans
        (Cert.KernelIdeal.Gen.W_main_arg0 m (Cert.KernelIdeal.Gen.dats m) c),
      ((h c).2 Cert.KernelIdeal.main_arg1 (Pipeline.mem_restRefs_of Cert.KernelIdeal.main_arg1 (by decide) (by decide))).trans
        (Cert.KernelIdeal.Gen.W_main_arg1 m (Cert.KernelIdeal.Gen.dats m) c),
      ((h c).1 0).trans (((Cert.KernelIdeal.Gen.dats m 0 c).arrAt_in 0 rfl _).trans
        ((Cert.KernelIdeal.Gen.A_eq m c 0).trans (Cert.KernelIdeal.Gen.V_main_arg2 m c))),
      ((h c).2 Cert.KernelIdeal.main_arg3 (Pipeline.mem_restRefs_of Cert.KernelIdeal.main_arg3 (by decide) (by decide))).trans
        (Cert.KernelIdeal.Gen.W_main_arg3 m (Cert.KernelIdeal.Gen.dats m) c),
      ((h c).2 Cert.KernelIdeal.main_arg4 (Pipeline.mem_restRefs_of Cert.KernelIdeal.main_arg4 (by decide) (by decide))).trans
        (Cert.KernelIdeal.Gen.W_main_arg4 m (Cert.KernelIdeal.Gen.dats m) c)⟩)
    (Cert.KernelIdeal.Gen.run_main (F := Ideal) m ρ)

theorem algebraic : Cert.algebraic_KernelIdeal_ReferenceIdeal := by
  intro m ρ m' ρ' hpre hagree
  refine ⟨kernelResult m, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v51_eq]
  funext j
  obtain ⟨i, k, rfl⟩ : ∃ (i : Fin 100000) (k : Fin 64), j = ix2 i k := ⟨j 0, j 1, eq_ix2 j⟩
  rw [Cert.ReferenceIdeal.RefRead.ref_read, kernelResult_apply m hpre c i k,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
